-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072 : Shape := ⟨1, ![131072]⟩
abbrev S1000x512 : Shape := ⟨2, ![1000, 512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S131072x512 .f32) (main_arg1 : IVec S131072 32) (main_arg2 : FVec F S1000x512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S1000x512 .f32 := Host.absf main_arg2
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_c_2 : IVec S_ 32 := constantI S_ 32 0#32
  let main_v9 : IVec S131072 32 := broadcastInDim S131072 ![] bcast_S_S131072 main_c_2
  let main_v10 : IVec S131072 1 := cmpi .sge main_arg1 main_v9
  let main_c_3 : IVec S_ 1 := constantI S_ 1 1#1
  let main_v11 : IVec S_ 1 := (fun x v => Host.reduce IntOp.andi x v reducesTo_S131072_S_d0 h_S_) main_v10 main_c_3
  let main_v12 : IVec S_ 1 := andi main_v8 main_v11
  main_v12
-- ==== Kernel.lean ====
abbrev S131072x512 : Shape := ⟨2, ![131072, 512]⟩
abbrev S131072 : Shape := ⟨1, ![131072]⟩
abbrev S1000x512 : Shape := ⟨2, ![1000, 512]⟩
abbrev S_ : Shape := ⟨0, ![]⟩
abbrev S131072x1 : Shape := ⟨2, ![131072, 1]⟩
abbrev S1024x512 : Shape := ⟨2, ![1024, 512]⟩
abbrev S16x128 : Shape := ⟨2, ![16, 128]⟩
abbrev S4096x512 : Shape := ⟨2, ![4096, 512]⟩
abbrev S4096x1 : Shape := ⟨2, ![4096, 1]⟩
abbrev S8x128 : Shape := ⟨2, ![8, 128]⟩
abbrev S1x1 : Shape := ⟨2, ![1, 1]⟩
abbrev S512x1024 : Shape := ⟨2, ![512, 1024]⟩
abbrev S512x512 : Shape := ⟨2, ![512, 512]⟩
abbrev S512x1 : Shape := ⟨2, ![512, 1]⟩
abbrev S512 : Shape := ⟨1, ![512]⟩
abbrev S1 : Shape := ⟨1, ![1]⟩

abbrev nBuf : Space → Nat
  | .hbm => 19
  | .vmem => 8
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S1000x512, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S131072, .i32⟩
  | .hbm, ⟨7, _⟩ => ⟨S131072, .i32⟩
  | .hbm, ⟨8, _⟩ => ⟨S_, .i32⟩
  | .hbm, ⟨9, _⟩ => ⟨S131072, .i32⟩
  | .hbm, ⟨10, _⟩ => ⟨S131072, .i32⟩
  | .hbm, ⟨11, _⟩ => ⟨S131072x1, .i32⟩
  | .hbm, ⟨12, _⟩ => ⟨S_, .i32⟩
  | .hbm, ⟨13, _⟩ => ⟨S_, .f32⟩
  | .hbm, ⟨14, _⟩ => ⟨S1024x512, .f32⟩
  | .hbm, ⟨15, _⟩ => ⟨S1024x512, .bf16⟩
  | .hbm, ⟨16, _⟩ => ⟨S16x128, .f32⟩
  | .hbm, ⟨17, _⟩ => ⟨S_, .f32⟩
  | .hbm, ⟨18, _⟩ => ⟨S_, .f32⟩
  | .local _ .vmem, ⟨0, _⟩ => ⟨S4096x512, .f32⟩
  | .local _ .vmem, ⟨1, _⟩ => ⟨S4096x512, .f32⟩
  | .local _ .vmem, ⟨2, _⟩ => ⟨S4096x1, .i32⟩
  | .local _ .vmem, ⟨3, _⟩ => ⟨S4096x1, .i32⟩
  | .local _ .vmem, ⟨4, _⟩ => ⟨S1024x512, .bf16⟩
  | .local _ .vmem, ⟨5, _⟩ => ⟨S8x128, .f32⟩
  | .local _ .vmem, ⟨6, _⟩ => ⟨S8x128, .f32⟩
  | .local _ .vmem, ⟨7, _⟩ => ⟨S1x1, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_c_1 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def k0_mult1 : BitVec 32 :=
  let c0_i32_2 : BitVec 32 := 0#32
  let c512_i32 : BitVec 32 := 512#32
  let v7 : BitVec 32 := Scalar.muli c0_i32_2 c512_i32
  v7
def k0_off1 (c0_i32_2 : BitVec 32) : Fin 2 → Nat :=
  let c512_i32 : BitVec 32 := 512#32
  let v7 : BitVec 32 := Scalar.muli c0_i32_2 c512_i32
  let v8 : BitVec 32 := v7
  let v9 : Index := Scalar.indexCast v8
  let c0_3 : Index := 0#32
  ![v9.toNat, 0]
def k0_off2 (c0_i32_2 : BitVec 32) : Fin 2 → Nat :=
  let c512_i32 : BitVec 32 := 512#32
  let v7 : BitVec 32 := Scalar.muli c0_i32_2 c512_i32
  let v8 : BitVec 32 := v7
  let v11 : Index := Scalar.indexCast v8
  let c0_4 : Index := 0#32
  ![v11.toNat, 0]
def k0_mult2 : BitVec 32 :=
  let c1_i32 : BitVec 32 := 1#32
  let c512_i32_8 : BitVec 32 := 512#32
  let v27 : BitVec 32 := Scalar.muli c1_i32 c512_i32_8
  v27
def k0_mult3 : BitVec 32 :=
  let c2_i32 : BitVec 32 := 2#32
  let c512_i32_14 : BitVec 32 := 512#32
  let v47 : BitVec 32 := Scalar.muli c2_i32 c512_i32_14
  v47
def k0_mult4 : BitVec 32 :=
  let c3_i32 : BitVec 32 := 3#32
  let c512_i32_20 : BitVec 32 := 512#32
  let v67 : BitVec 32 := Scalar.muli c3_i32 c512_i32_20
  v67
def k0_mult5 : BitVec 32 :=
  let c4_i32 : BitVec 32 := 4#32
  let c512_i32_26 : BitVec 32 := 512#32
  let v87 : BitVec 32 := Scalar.muli c4_i32 c512_i32_26
  v87
def k0_mult6 : BitVec 32 :=
  let c5_i32 : BitVec 32 := 5#32
  let c512_i32_32 : BitVec 32 := 512#32
  let v107 : BitVec 32 := Scalar.muli c5_i32 c512_i32_32
  v107
def k0_mult7 : BitVec 32 :=
  let c6_i32 : BitVec 32 := 6#32
  let c512_i32_38 : BitVec 32 := 512#32
  let v127 : BitVec 32 := Scalar.muli c6_i32 c512_i32_38
  v127
def k0_mult8 : BitVec 32 :=
  let c7_i32 : BitVec 32 := 7#32
  let c512_i32_44 : BitVec 32 := 512#32
  let v147 : BitVec 32 := Scalar.muli c7_i32 c512_i32_44
  v147
def k0_cond2 (i : grid0.Coords) : BitVec 1 :=
  let arg1 : BitVec 32 := BitVec.ofNat 32 (i 1).val
  let c15_i32 : BitVec 32 := 15#32
  let v172 : BitVec 1 := Scalar.cmpi .eq arg1 c15_i32
  let v173 : BitVec 32 := Scalar.extui v172
  let c0_i32_54 : BitVec 32 := 0#32
  let v174 : BitVec 1 := Scalar.cmpi .ne v173 c0_i32_54
  v174

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S131072 : S_.BroadcastsInDim S131072 (![] : Fin 0 → Fin S131072.rank)
  shapeCasts_S131072_S131072x1 : S131072.ShapeCasts S131072x1
  pads_S1000x512_S1024x512_0240_000 : S1000x512.Pads (![0, 0] : Fin 2 → Nat) ![24, 0] ![0, 0] S1024x512
  h_S_ : 0 < S_.numel
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  iota_S512x1024_d1_w32 : S512x1024.Iotas .tc 32 [1]
  h_S512x512 : 0 < S512x512.numel
  h_S512x1 : 0 < S512x1.numel
  shapeCasts_S512x1_S512x1 : S512x1.ShapeCasts S512x1
  broadcasts_S512x1_S512x1024 : S512x1.Broadcasts S512x1024
  natLt_1_32 : 1 < 32
  reduces_S512x512_S512 : S512x512.Reduces [1] S512
  shapeCasts_S512_S512x1 : S512.ShapeCasts S512x1
  reduces_S512x1_S1 : S512x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S16x128_S_d0_1 : S16x128.ReducesTo [0, 1] S_
  dot_S512x1024_S1024x512_S512x512_1_0_0_1_n_n_wf : DotDims.WF S512x1024 S1024x512 S512x512 [1] [0] [0] [1] [] []
  hrank0 : 0 < grid0.rank
  k0_mult1_dvd : 512 ∣ k0_mult1.toNat
  k0_off1_inb : ∀ (r : Fin 8), ∀ a, (k0_off1 (BitVec.ofNat 32 r.val)) a + S512x512.size a ≤ S4096x512.size a
  k0_off2_inb : ∀ (r : Fin 8), ∀ a, (k0_off2 (BitVec.ofNat 32 r.val)) a + S512x1.size a ≤ S4096x1.size a
  k0_mult2_dvd : 512 ∣ k0_mult2.toNat
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S131072x1.size a
  hwx0_1 : ∀ i : grid0.Coords, EltTy.bits .i32 = 32 ∨ (Rect.block (s := S131072x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S131072x512 : Shape := ⟨2, ![131072, 512]⟩
abbrev S131072 : Shape := ⟨1, ![131072]⟩
abbrev S1000x512 : Shape := ⟨2, ![1000, 512]⟩
abbrev S_ : Shape := ⟨0, ![]⟩
abbrev S131072x1 : Shape := ⟨2, ![131072, 1]⟩

abbrev nBuf : Space → Nat
  | .hbm => 18
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S1000x512, .f32⟩
  | .hbm, ⟨3, _⟩ => ⟨S_, .i32⟩
  | .hbm, ⟨4, _⟩ => ⟨S131072, .i32⟩
  | .hbm, ⟨5, _⟩ => ⟨S131072, .i1⟩
  | .hbm, ⟨6, _⟩ => ⟨S_, .i32⟩
  | .hbm, ⟨7, _⟩ => ⟨S131072, .i32⟩
  | .hbm, ⟨8, _⟩ => ⟨S131072, .i32⟩
  | .hbm, ⟨9, _⟩ => ⟨S131072, .i32⟩
  | .hbm, ⟨10, _⟩ => ⟨S131072x1, .i32⟩
  | .hbm, ⟨11, _⟩ => ⟨S131072x512, .f32⟩
  | .hbm, ⟨12, _⟩ => ⟨S131072x512, .f32⟩
  | .hbm, ⟨13, _⟩ => ⟨S131072x512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  reducesTo_S131072x512_S_d0_1 : S131072x512.ReducesTo [0, 1] S_
  h_S_ : 0 < S_.numel
  gather_S1000x512_S131072x1_S131072x512_1_0_n_n_0_1_1512_wf : GatherDims.WF S1000x512 S131072x1 S131072x512 [1] [0] [] [0] [] 1 ![1, 512]

variable [Facts₀]

def gather_S1000x512_S131072x1_S131072x512_1_0_n_n_0_1_1512 : GatherDims S1000x512 S131072x1 S131072x512 where
  offsetDims := [1]
  collapsedSliceDims := [0]
  operandBatchingDims := []
  startIndicesBatchingDims := []
  startIndexMap := [0]
  indexVectorDim := 1
  sliceSizes := ![1, 512]
  wf := gather_S1000x512_S131072x1_S131072x512_1_0_n_n_0_1_1512_wf

class Facts : Prop extends Facts₀ where

variable [Facts]
-- ==== Proof.Spec.lean ====
/-
  The center loss both programs compute, as mathematics over literal shapes and with no program in sight.

  A sample `R` has a feature row `x R` (512 reals), a class label `l R` (a 32-bit word) and the class table
  `tg` has 1000 rows. The label selects the row `rowOf (l R)`: the word read as a signed integer and clamped into
  `[0, 999]`. The squared error of entry `(R, f)` is `(x R f - tg (rowOf (l R)) f)²`, and the loss is the sum of all
  `131072 · 512` of them divided by `131072 · 512 = 2^26`.

  The tiled program splits the samples into 32 tiles of 4096 rows; tile `n` holds rows `4096 n … 4096 n + 4095`.
  Tiles `16 c … 16 c + 15` are summed into one number per half `c` of the samples; that number, scaled by `p` and then by
  `q`, is written to every one of the 1024 cells of an 8 × 128 block, and the 2 · 1024 cells are summed. With
  `1024 · q = 1` this is the sum of all squared errors scaled by `p`.
-/
import Idealize.ShloMosaic.PureOps.Ideal
import Idealize.ShloMosaic.Lib.ValueIdx

noncomputable section

open scoped BigOperators

namespace Cert.CenterLoss

open Idealize.ShloMosaic Idealize.ShloMosaic.ValueIdx

/-- The samples' features, the labels, the class table. -/
abbrev SX : Shape := ⟨2, ![131072, 512]⟩
abbrev SLbl : Shape := ⟨1, ![131072]⟩
abbrev STbl : Shape := ⟨2, ![1000, 512]⟩
/-- One tile of features, its column of labels, the class table padded to 1024 rows, the array of cells, a scalar. -/
abbrev SXt : Shape := ⟨2, ![4096, 512]⟩
abbrev SLt : Shape := ⟨2, ![4096, 1]⟩
abbrev STp : Shape := ⟨2, ![1024, 512]⟩
abbrev SOut : Shape := ⟨2, ![16, 128]⟩
abbrev S0 : Shape := ⟨0, ![]⟩

/-- The table row a label selects: the label read as a signed integer and clamped into `[0, 999]`. -/
def rowOf (l : BitVec 32) : Fin 1000 := ⟨min l.toInt.toNat 999, by omega⟩

/-- The squared error of sample `R` at feature `f`. -/
def sqErr (x : SX.Idx → EReal) (l : SLbl.Idx → BitVec 32) (tg : STbl.Idx → EReal) (R : Fin 131072) (f : Fin 512) : EReal :=
  (x (ix2 R f) - tg (ix2 (rowOf (l (ix1 R))) f)) * (x (ix2 R f) - tg (ix2 (rowOf (l (ix1 R))) f))

/-- The sum of all squared errors. -/
def sqSum (x : SX.Idx → EReal) (l : SLbl.Idx → BitVec 32) (tg : STbl.Idx → EReal) : EReal :=
  ∑ R : Fin 131072, ∑ f : Fin 512, sqErr x l tg R f

/-- THE REFERENCE'S RESULT: zero plus the sum of all squared errors, divided by `d`. -/
def refLoss (x : SX.Idx → EReal) (l : SLbl.Idx → BitVec 32) (tg : STbl.Idx → EReal) (d : EReal) : EReal :=
  Ideal.div (0 + sqSum x l tg) d

/-! ## The tiled sum -/

/-- The sample that row `r` of tile `n` holds (tiles `n < 32`; beyond them the row wraps, and is never used). -/
def tileRow (n : ℕ) (r : Fin 4096) : Fin 131072 := ⟨(4096 * n + r.val) % 131072, Nat.mod_lt _ (by norm_num)⟩

/-- The squared errors of tile `n`, summed. -/
def tileErr (x : SX.Idx → EReal) (l : SLbl.Idx → BitVec 32) (tg : STbl.Idx → EReal) (n : ℕ) : EReal :=
  ∑ r : Fin 4096, ∑ f : Fin 512, sqErr x l tg (tileRow n r) f

/-- What cell `o` of the 16 × 128 array of cells holds: the sixteen tile sums of the half `o 0 / 8` of the samples,
    from zero, scaled by `p` and then by `q`. -/
def outCell (x : SX.Idx → EReal) (l : SLbl.Idx → BitVec 32) (tg : STbl.Idx → EReal) (p q : EReal) (o : SOut.Idx) : EReal :=
  ((0 + ∑ s ∈ Finset.range 16, tileErr x l tg (16 * ((o 0).val / 8) + s)) * p) * q

/-- THE TILED PROGRAM'S RESULT: zero plus the sum of all cells. -/
def tiledLoss (x : SX.Idx → EReal) (l : SLbl.Idx → BitVec 32) (tg : STbl.Idx → EReal) (p q : EReal) : EReal :=
  0 + ∑ o : SOut.Idx, outCell x l tg p q o

/-! ## One tile, from its own blocks -/

/-- The row of the padded table a stored label word selects: the word read unsigned, below 1024 (a word outside that
    range wraps, and is never met: the stored labels are clamped into `[0, 999]`). -/
def padRow (w : BitVec 32) : Fin 1024 := ⟨w.toNat % 1024, Nat.mod_lt _ (by norm_num)⟩

/-- The squared error of row `r` of a tile at feature `f`, from the tile's features `x0`, its column of stored labels
    `x1` and the padded table `x2`. -/
def tileSq (x0 : SXt.Idx → EReal) (x1 : SLt.Idx → BitVec 32) (x2 : STp.Idx → EReal) (r : Fin 4096) (f : Fin 512) : EReal :=
  (x0 (ix2 r f) - x2 (ix2 (padRow (x1 (ix2 r 0))) f)) * (x0 (ix2 r f) - x2 (ix2 (padRow (x1 (ix2 r 0))) f))

/-- A tile's squared errors, summed. -/
def tileTotal (x0 : SXt.Idx → EReal) (x1 : SLt.Idx → BitVec 32) (x2 : STp.Idx → EReal) : EReal :=
  ∑ r : Fin 4096, ∑ f : Fin 512, tileSq x0 x1 x2 r f

end Cert.CenterLoss

end
-- ==== Proof.SumAlgebra.lean ====
/-
  The tiled sum of the center loss equals the quotient of the reference, over the extended reals.

  Nothing here is finite by hypothesis: the features and the table range over all of the extended reals, and every step
  below holds there. Three facts carry the argument.

  * Multiplication in the extended reals is associative and commutative, so a value scaled by `p`, then by `q`, and
    then added to itself `n` times is the value scaled by `p` and then by the real `q * n`; with `q * n = 1` the
    scale by `q` and the `n` copies cancel.
  * A nonnegative real factor distributes over a sum of two extended reals with no side condition.
  * Sums over a finite index set may be re-indexed along a bijection: an index below `a * b` is `b * c + r` with
    `c < a` and `r < b` in exactly one way.
-/
import proofs.«429028_j79723182948888_3_alg».proof.Proof.Spec
import Idealize.ShloMosaic.PureOps.Ideal
import Idealize.ShloMosaic.Lib.ValueIdx
import Mathlib.Data.EReal.Inv
import Mathlib.Data.EReal.Operations
import Mathlib.Logic.Equiv.Fin.Basic
import Mathlib.Algebra.BigOperators.Fin

noncomputable section

open scoped BigOperators

namespace Cert.CenterLoss

open Idealize.ShloMosaic Idealize.ShloMosaic.ValueIdx

/-! ## The three words, as reals -/

/-- The word `0x32800000` is `2^(-26)`, the reciprocal of the number of entries. -/
theorem ofBits_inv_entries : Ideal.ofBits .f32 0x32800000#32 = ((1 / 67108864 : ℝ) : EReal) := by
  simp [Ideal.ofBits, Ideal.ieee, -EReal.coe_mul]; norm_num

/-- The word `0x3A800000` is `2^(-10)`, the reciprocal of the number of cells in a block. -/
theorem ofBits_inv_cells : Ideal.ofBits .f32 0x3A800000#32 = ((1 / 1024 : ℝ) : EReal) := by
  simp [Ideal.ofBits, Ideal.ieee, -EReal.coe_mul]; norm_num

/-- The word `0x4C800000` is `2^26`, the number of entries. -/
theorem ofBits_entries : Ideal.ofBits .f32 0x4C800000#32 = ((67108864 : ℝ) : EReal) := by
  simp [Ideal.ofBits, Ideal.ieee, -EReal.coe_mul]; norm_num

/-! ## Re-indexing a sum over the indices below a product -/

/-- With `c < a` and `r < b`, the number `b * c + r` is below `a * b`. -/
theorem mul_add_lt_mul {a b c r : ℕ} (hc : c < a) (hr : r < b) : b * c + r < a * b :=
  calc b * c + r < b * c + b := Nat.add_lt_add_left hr _
    _ = b * (c + 1) := (Nat.mul_succ b c).symm
    _ ≤ b * a := Nat.mul_le_mul_left b hc
    _ = a * b := Nat.mul_comm b a

/-- An index below `a * b` is `b * c + r` with `c < a` and `r < b` in exactly one way, so a sum over such indices is the
    double sum over `c` and `r`. -/
theorem sum_fin_mul {M : Type*} [AddCommMonoid M] {n : ℕ} (a b : ℕ) (h : n = a * b) (f : Fin n → M) :
    ∑ i : Fin n, f i
      = ∑ c : Fin a, ∑ r : Fin b, f ⟨b * c.val + r.val, h ▸ mul_add_lt_mul c.isLt r.isLt⟩ := by
  subst h
  rw [← (finProdFinEquiv (m := a) (n := b)).sum_comp f, Fintype.sum_prod_type]
  refine Finset.sum_congr rfl fun c _ => Finset.sum_congr rfl fun r _ => ?_
  congr 1
  exact Fin.ext (Nat.add_comm _ _)

/-! ## Copies of a scaled value -/

/-- A value scaled by the real `p` and then by the real `q`, added to itself `n` times, is the value scaled by `p` when
    `q * n = 1`: the product of extended reals is associative and commutative, and `n` copies of `v` are `n * v`. -/
theorem nsmul_scaled (n : ℕ) (a : EReal) (p q : ℝ) (h : q * (n : ℝ) = 1) :
    n • ((a * (p : EReal)) * (q : EReal)) = a * (p : EReal) := by
  have hq : (q : EReal) * (n : EReal) = 1 := by exact_mod_cast h
  rw [EReal.nsmul_eq_mul, mul_comm, mul_assoc, hq, mul_one]

/-! ## The sum over the cells -/

/-- A function of the cell that depends on the cell `o` only through `o 0 / 8`, summed over the `16 × 128` cells: the
    first coordinate `8 c + r` has `o 0 / 8 = c`, so each half `c` is met `8 · 128 = 1024` times. -/
theorem sum_cells (G : ℕ → EReal) : ∑ o : SOut.Idx, G ((o 0).val / 8) = 1024 • G 0 + 1024 • G 1 := by
  rw [sum_idx2]
  have h0 : ∀ (a : Fin 16) (b : Fin 128), G (((ix2 a b : SOut.Idx) 0).val / 8) = G (a.val / 8) := fun _ _ => rfl
  simp only [h0, Finset.sum_const, Finset.card_univ, Fintype.card_fin]
  rw [sum_fin_mul 2 8 (by norm_num) (fun a : Fin 16 => 128 • G (a.val / 8))]
  have h1 : ∀ (c : Fin 2) (r : Fin 8), (8 * c.val + r.val) / 8 = c.val := fun c r => by omega
  simp only [h1, Finset.sum_const, Finset.card_univ, Fintype.card_fin, Fin.sum_univ_two, smul_smul]
  rfl

/-- The cells of the tiled program sum to the thirty-two tile sums, added and scaled by `p`: in each half the `1024`
    copies cancel the scale by `q`, and the nonnegative real `p` distributes over the sum of the two halves. -/
theorem sum_outCell (x : SX.Idx → EReal) (l : SLbl.Idx → BitVec 32) (tg : STbl.Idx → EReal) (p q : ℝ)
    (hp : 0 ≤ p) (hq : q * 1024 = 1) :
    ∑ o : SOut.Idx, outCell x l tg (p : EReal) (q : EReal) o
      = (∑ n ∈ Finset.range 32, tileErr x l tg n) * (p : EReal) := by
  have hG : ∀ o : SOut.Idx, outCell x l tg (p : EReal) (q : EReal) o
      = (fun c : ℕ => ((0 + ∑ s ∈ Finset.range 16, tileErr x l tg (16 * c + s)) * (p : EReal)) * (q : EReal))
          ((o 0).val / 8) := fun _ => rfl
  rw [Finset.sum_congr rfl (fun o _ => hG o),
    sum_cells (fun c : ℕ => ((0 + ∑ s ∈ Finset.range 16, tileErr x l tg (16 * c + s)) * (p : EReal)) * (q : EReal))]
  have hq' : q * ((1024 : ℕ) : ℝ) = 1 := by exact_mod_cast hq
  simp only [nsmul_scaled 1024 _ p q hq', zero_add, Nat.mul_zero, Nat.mul_one]
  rw [← EReal.right_distrib_of_nonneg_of_ne_top (EReal.coe_nonneg.2 hp) (EReal.coe_ne_top p)]
  congr 1
  exact (Finset.sum_range_add (fun n => tileErr x l tg n) 16 16).symm

/-! ## The tiles cover the samples -/

/-- Tile `n < 32` holds the samples `4096 n + r`, and every sample is `4096 n + r` in exactly one way: the thirty-two
    tile sums add up to the sum of all squared errors. -/
theorem sum_tileErr (x : SX.Idx → EReal) (l : SLbl.Idx → BitVec 32) (tg : STbl.Idx → EReal) :
    ∑ n ∈ Finset.range 32, tileErr x l tg n = sqSum x l tg := by
  unfold sqSum
  rw [sum_fin_mul 32 4096 (by norm_num) (fun R : Fin 131072 => ∑ f : Fin 512, sqErr x l tg R f),
    ← Fin.sum_univ_eq_sum_range (fun n => tileErr x l tg n) 32]
  refine Finset.sum_congr rfl fun n _ => ?_
  unfold tileErr
  refine Finset.sum_congr rfl fun r _ => ?_
  have hn := n.isLt
  have hr := r.isLt
  have hrow : tileRow n.val r = (⟨4096 * n.val + r.val, by omega⟩ : Fin 131072) :=
    Fin.ext (Nat.mod_eq_of_lt (by omega))
  rw [hrow]

/-! ## The two losses agree -/

/-- The tiled program, with the scales `2^(-26)` and `2^(-10)`, computes what the reference computes with the divisor
    `2^26`: both are the sum of all squared errors times the real `2^(-26)`. -/
theorem tiled_eq_ref (x : SX.Idx → EReal) (l : SLbl.Idx → BitVec 32) (tg : STbl.Idx → EReal) :
    tiledLoss x l tg (Ideal.ofBits .f32 0x32800000#32) (Ideal.ofBits .f32 0x3A800000#32)
      = refLoss x l tg (Ideal.ofBits .f32 0x4C800000#32) := by
  rw [ofBits_inv_entries, ofBits_inv_cells, ofBits_entries]
  unfold tiledLoss refLoss
  rw [Ideal.div_coe (by norm_num), zero_add, zero_add,
    sum_outCell x l tg _ _ (by norm_num) (by norm_num), sum_tileErr]

end Cert.CenterLoss

end
-- ==== Proof.RefValue.lean ====
/-
  The reference program's result as mathematics, and the label conjunct of the precondition decoded.

  The reference computes, for every sample `R` and feature `f`, the difference between the feature `x R f` and the entry
  `f` of the table row the label of `R` selects, squares it, sums all `131072 · 512` squares from zero and divides by a
  constant. The row is chosen by a gather whose start index is the label when the label is non-negative (a negative label
  would first be shifted by the table's height); the gather reads its start index signed and clamps it into `[0, 999]`.
  Under "every label is non-negative" the start index is the label itself and the clamped row is the specification's `rowOf`.

  The precondition's last conjunct is `all (labels ≥ 0)`: a signed comparison of every label with a broadcast zero word,
  reduced by `and` from the bit one. Its being one says every label, read signed, is at least zero.
-/
import proofs.«429028_j79723182948888_3_alg».proof.Proof.Gen.ReferenceIdeal.Read
import proofs.«429028_j79723182948888_3_alg».proof.Proof.Gen.Pre_finite_inputs
import proofs.«429028_j79723182948888_3_alg».proof.Proof.Spec
import Idealize.ShloMosaic.Lib.ValueIdx
import Idealize.ShloMosaic.Lib.StableHlo.Predicate
import Idealize.ShloMosaic.Lib.ReduceAll
import Idealize.ShloMosaic.PureOps.Ideal.Laws

noncomputable section

open scoped BigOperators

namespace Cert.ReferenceIdeal.RefValue

open Idealize.ShloMosaic Idealize.ShloMosaic.ValueIdx Idealize.ShloMosaic.StableHlo
open Cert.CenterLoss Cert.ReferenceIdeal

/-! ## The precondition's label conjunct -/

/-- The zero word reads as the integer zero. -/
theorem toInt_zero32 : (0#32 : BitVec 32).toInt = 0 := by decide

/-- the precondition's third conjunct: every label, read signed, is ≥ 0 -/
theorem labels_nonneg [Cert.Pre_finite_inputs.Facts] (x0 : FVec Ideal Cert.Pre_finite_inputs.S131072x512 .f32)
    (x1 : IVec Cert.Pre_finite_inputs.S131072 32) (x2 : FVec Ideal Cert.Pre_finite_inputs.S1000x512 .f32)
    (h : Cert.Pre_finite_inputs.fn (F := Ideal) x0 x1 x2 = fun _ => 1#1) : ∀ i, 0 ≤ (x1 i).toInt := by
  intro i
  -- the predicate's one bit is a conjunction whose second operand is the `all` over the labels
  have h0 := congrFun h ix0
  dsimp only [Cert.Pre_finite_inputs.fn] at h0
  have h3 := (IntOp.andi_eq_one.1 h0).2
  haveI : Subsingleton Cert.Pre_finite_inputs.S_.Idx := ⟨fun a b => funext fun d => d.elim0⟩
  -- an `and`-reduction that is one met a one at every label
  have hi := Host.reduce_andi_all _ _ _ _ _ h3 i
  -- the bit at label `i` is the signed comparison "zero ≤ label"
  have hc := IntOp.cmpi_sge.1 hi
  rw [Predicate.bcast_scalar _ Cert.Pre_finite_inputs.Facts.h_S_] at hc
  rw [← toInt_zero32]
  exact hc

/-! ## The gather of table rows, read at an entry -/

/-- THE ROW GATHER READ AT `(R, f)`. The operand is the `1000 × 512` table, the start indices a `131072 × 1` column; the
    operand's row axis is collapsed and start-indexed, its column axis is the result's offset axis. Result entry `(R, f)`
    is the table at column `f` of the row that start index `R` names, read signed and clamped into `[0, 999]`. -/
theorem gather_row_apply {α : Type} [Facts₀] (x : S1000x512.Idx → α) (idx : IVec S131072x1 32) (R : Fin 131072) (f : Fin 512) :
    Host.gather gather_S1000x512_S131072x1_S131072x512_1_0_n_n_0_1_1512 x idx (ix2 R f)
      = x (ix2 (rowOf (idx (ix2 R 0))) f) := by
  unfold Host.gather
  congr 1
  funext a
  refine Fin.ext ?_
  match a with
  | ⟨0, _⟩ =>
    -- the row axis: the clamped start, no batching coordinate, no offset coordinate (the axis is collapsed)
    show gather_S1000x512_S131072x1_S131072x512_1_0_n_n_0_1_1512.start (ix2 R f) idx 0
        + gather_S1000x512_S131072x1_S131072x512_1_0_n_n_0_1_1512.batchCoord (ix2 R f) 0
        + gather_S1000x512_S131072x1_S131072x512_1_0_n_n_0_1_1512.offCoord (ix2 R f) 0 = (rowOf (idx (ix2 R 0))).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000x512_S131072x1_S131072x512_1_0_n_n_0_1_1512.startIndexMap from
      List.mem_singleton.mpr rfl)]
    -- the start index of result entry `(R, f)` sits at `(R, 0)` of the column
    have hsi : gather_S1000x512_S131072x1_S131072x512_1_0_n_n_0_1_1512.siIdx (ix2 R f)
        ⟨List.idxOf (0 : Fin 2) gather_S1000x512_S131072x1_S131072x512_1_0_n_n_0_1_1512.startIndexMap,
          List.idxOf_lt_length_iff.2 (List.mem_singleton.mpr rfl)⟩ = ix2 R 0 := by
      funext b; refine Fin.ext ?_
      match b with
      | ⟨0, _⟩ => rfl
      | ⟨1, _⟩ => rfl
    rw [hsi]
    rfl
  | ⟨1, _⟩ =>
    -- the column axis: not start-indexed, not batching; its offset coordinate is the result's column
    show gather_S1000x512_S131072x1_S131072x512_1_0_n_n_0_1_1512.start (ix2 R f) idx 1
        + gather_S1000x512_S131072x1_S131072x512_1_0_n_n_0_1_1512.batchCoord (ix2 R f) 1
        + gather_S1000x512_S131072x1_S131072x512_1_0_n_n_0_1_1512.offCoord (ix2 R f) 1 = f.val
    rw [GatherDims.batchCoord_eq_zero _ _ _ List.not_mem_nil]
    have hs : gather_S1000x512_S131072x1_S131072x512_1_0_n_n_0_1_1512.start (ix2 R f) idx 1 = 0 := by
      unfold GatherDims.start
      exact dif_neg (show ¬ (1 : Fin 2) ∈ ([0] : List (Fin 2)) from by decide)
    have ho : gather_S1000x512_S131072x1_S131072x512_1_0_n_n_0_1_1512.offCoord (ix2 R f) 1 = f.val := by
      unfold GatherDims.offCoord
      rw [dif_pos ((GatherDims.mem_sKept _ _).mpr
        ⟨(show ¬ (1 : Fin 2) ∈ ([0] : List (Fin 2)) from by decide), List.not_mem_nil⟩)]
      rfl
    rw [hs, ho]
    simp only [Nat.add_zero, Nat.zero_add]

/-! ## The start index under non-negative labels -/

/-- The start index of sample `R` is its label: the label is not below zero, so the select keeps it unshifted. -/
theorem start_index (x1 : (⟨S131072, .i32⟩ : BufTy).Contents (Elt Ideal)) (hl : ∀ i, 0 ≤ (x1 i).toInt) (R : Fin 131072) :
    Read.val_main_v5 (F := Ideal) x1 (ix2 R 0) = x1 (ix1 R) := by
  have hidx : Read.idx_main_v5 (ix2 R (0 : Fin 1)) = ix1 R := by
    funext a; match a with | ⟨0, _⟩ => rfl
  rw [Read.val_main_v5_apply, hidx, Read.val_main_v4_apply, Read.val_main_v1_apply, Read.val_main_v0_apply,
    Read.val_main_c_apply]
  have hc : IntOp.cmpi .slt (x1 (ix1 R)) 0#32 = 0#1 := by
    refine eq_zero_of_ne_one ?_
    rw [IntOp.cmpi_slt, toInt_zero32]
    exact not_lt.mpr (hl (ix1 R))
  rw [hc, select_zero]

/-! ## The reference's stages at an entry -/

/-- The gathered table entry of `(R, f)` is entry `f` of the row the label of `R` selects. -/
theorem v6_entry (x1 : (⟨S131072, .i32⟩ : BufTy).Contents (Elt Ideal)) (x2 : (⟨S1000x512, .f32⟩ : BufTy).Contents (Elt Ideal))
    (hl : ∀ i, 0 ≤ (x1 i).toInt) (R : Fin 131072) (f : Fin 512) :
    Read.val_main_v6 (F := Ideal) x1 x2 (ix2 R f) = x2 (ix2 (rowOf (x1 (ix1 R))) f) := by
  unfold Read.val_main_v6
  rw [gather_row_apply, start_index x1 hl R]

/-- The squared difference at `(R, f)` is the specification's squared error. -/
theorem v8_entry (x0 : (⟨S131072x512, .f32⟩ : BufTy).Contents (Elt Ideal)) (x1 : (⟨S131072, .i32⟩ : BufTy).Contents (Elt Ideal))
    (x2 : (⟨S1000x512, .f32⟩ : BufTy).Contents (Elt Ideal)) (hl : ∀ i, 0 ≤ (x1 i).toInt) (R : Fin 131072) (f : Fin 512) :
    Read.val_main_v8 (F := Ideal) x0 x1 x2 (ix2 R f) = sqErr x0 x1 x2 R f := by
  rw [Read.val_main_v8_apply, Read.val_main_v7_apply, v6_entry x1 x2 hl R f]
  rfl

/-! ## The reference's result -/

/-- the reference's result term is the specification's refLoss -/
theorem ref_value [Cert.ReferenceIdeal.Facts] (x0 : (⟨S131072x512, .f32⟩ : BufTy).Contents (Elt Ideal))
    (x1 : (⟨S131072, .i32⟩ : BufTy).Contents (Elt Ideal)) (x2 : (⟨S1000x512, .f32⟩ : BufTy).Contents (Elt Ideal))
    (hl : ∀ i, 0 ≤ (x1 i).toInt) :
    Cert.ReferenceIdeal.Read.val_main_v10 (F := Ideal) x0 x1 x2
      = fun _ => refLoss x0 x1 x2 (Ideal.ofBits .f32 0x4C800000#32) := by
  funext i
  -- the sum of all squares, entry by entry
  have hsum : ∑ a : Fin 131072, ∑ b : Fin 512, Read.val_main_v8 (F := Ideal) x0 x1 x2 (ix2 a b) = sqSum x0 x1 x2 :=
    Finset.sum_congr rfl fun R _ => Finset.sum_congr rfl fun f _ => v8_entry x0 x1 x2 hl R f
  rw [Read.val_main_v10_apply, Read.val_main_v9_apply, Read.val_main_cst_apply, Read.val_main_cst_1_apply,
    Ideal.hostDivf_def, Ideal.ofBits_def, Ideal.ofBits_def, Ideal.ofBits_zero_f32, sum_idx2, hsum]
  rfl

end Cert.ReferenceIdeal.RefValue

end
-- ==== Proof.Names.lean ====
/-
  Names, at literal types, for what one grid point of the tiled program reads: tile `t`'s block of features, its column
  of stored labels and the padded table as the region finds them, and the three argument arrays; and `tileNum`, the
  number tile `n` contributes (the tile's squared errors summed, from its own blocks; zero beyond the 32 tiles).
-/
import proofs.«429028_j79723182948888_3_alg».proof.Proof.Gen.KernelIdeal.Frame
import proofs.«429028_j79723182948888_3_alg».proof.Proof.Spec

noncomputable section

namespace Cert.KernelIdeal.Names

open Cert.KernelIdeal Cert.KernelIdeal.Gen Cert.CenterLoss
open Idealize.ShloMosaic Idealize.ShloMosaic.TcCoe Idealize.SL.Sem

variable (m : (ℓ : Loc nD τ sig) → Buf (Elt Ideal) ℓ)

/-- Tile `t`'s features, its column of stored labels, the padded table. -/
abbrev xblk (c : Dev nD) (t : Fin cfg0.N) : Vec Ideal S4096x512 .f32 := iblk m c 0 t
abbrev lblk (c : Dev nD) (t : Fin cfg0.N) : Vec Ideal S4096x1 .i32 := iblk m c 1 t
abbrev tblk (c : Dev nD) (t : Fin cfg0.N) : Vec Ideal S1024x512 .bf16 := iblk m c 2 t

/-- The samples' features, the labels and the class table: the program's three arguments. -/
abbrev argX (c : Dev nD) : SX.Idx → EReal := m ((c.tc : Thread nD τ).loc main_arg0)
abbrev argL (c : Dev nD) : SLbl.Idx → BitVec 32 := m ((c.tc : Thread nD τ).loc main_arg1)
abbrev argT (c : Dev nD) : STbl.Idx → EReal := m ((c.tc : Thread nD τ).loc main_arg2)

/-- The number tile `n` contributes, from its own blocks; zero beyond the grid's 32 points. -/
def tileNum (c : Dev nD) (n : ℕ) : EReal :=
  if h : n < cfg0.N then tileTotal (xblk m c ⟨n, h⟩) (lblk m c ⟨n, h⟩) (tblk m c ⟨n, h⟩) else 0

theorem tileNum_of_lt (c : Dev nD) (t : Fin cfg0.N) :
    tileNum m c t.val = tileTotal (xblk m c t) (lblk m c t) (tblk m c t) := dif_pos t.isLt

end Cert.KernelIdeal.Names

end
-- ==== Proof.Blocks.lean ====
/-
  One tile's number, from the blocks the region finds, is the tile's squared errors of the program's three arguments.

  Before the region the host clamps every label into `[0, 999]` as a signed integer and lays the result out as a
  `131072 × 1` column, and pads the `1000 × 512` class table with 24 rows to `1024 × 512` (narrowing its format, the
  identity on extended reals). At grid point `t` the region stages rows `4096 t … 4096 t + 4095` of the features and of
  that column, and the whole padded table. So entry `(r, f)` of tile `t`'s feature block is the features' entry
  `(4096 t + r, f)`; row `r` of its label column is the clamp of label `4096 t + r`, whose unsigned value is the label read
  signed and clamped into `[0, 999]` — the specification's `rowOf` — and so below 1000, where the padded table is the class
  table. Hence a tile's squared error at `(r, f)` is the arguments' squared error at sample `4096 t + r`, and summing over
  the tile gives the claim.
-/
import proofs.«429028_j79723182948888_3_alg».proof.Proof.Names
import Idealize.ShloMosaic.Lib.ValueIdx
import Idealize.ShloMosaic.Lib.Pipeline.Value
import Idealize.ShloMosaic.Lib.KernelVsHost
import Idealize.ShloMosaic.PureOps.Ideal.Laws

noncomputable section

open scoped BigOperators

namespace Cert.KernelIdeal.BlockValue

open Cert.KernelIdeal Cert.KernelIdeal.Gen Cert.KernelIdeal.Names Cert.CenterLoss Idealize.ShloMosaic Idealize.ShloMosaic.TcCoe Idealize.ShloMosaic.ValueIdx Idealize.SL.Sem
open Idealize.ShloMosaic.StableHlo

variable (m : (ℓ : Loc nD τ sig) → Buf (Elt Ideal) ℓ)

/-! ## What the host computes before the region -/

/-- The column of stored labels the region finds: the labels clamped into `[0, 999]` as signed integers (the maximum
    with a broadcast zero, then the minimum with a broadcast 999), laid out as a `131072 × 1` column. -/
theorem V_main_v1 (c : Dev nD) : (V m c main_v1 : S131072x1.Idx → BitVec 32)
    = shapeCast S131072x1 (minsi (broadcastInDim S131072 ![] bcast_S_S131072 (constantI S_ 32 999#32))
        (maxsi (broadcastInDim S131072 ![] bcast_S_S131072 (constantI S_ 32 0#32)) (argL m c))) shapeCasts_S131072_S131072x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The padded table the region finds: the class table with 24 rows of the converted zero word appended, its format
    narrowed (the identity on extended reals). -/
theorem V_main_v3 (c : Dev nD) : (V m c main_v3 : (⟨S1024x512, .bf16⟩ : BufTy).Contents (Elt Ideal))
    = truncf .bf16 (pad S1024x512 ![0, 0] ![24, 0] ![0, 0] (argT m c) (sitofp (F := Ideal) .f32 (constantI S_ 32 0#32))
        pads_S1000x512_S1024x512_0240_000 h_S_) bitsLt_bf16_f32 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-! ## The clamp of a label word -/

/-- A label clamped into `[0, 999]` as a signed integer has, read unsigned, the value of the label read signed and
    clamped: a negative label gives 0, one above 999 gives 999. -/
theorem clamp_toNat (l : BitVec 32) : (IntOp.minsi 999#32 (IntOp.maxsi 0#32 l)).toNat = min l.toInt.toNat 999 := by
  have h0 : (0#32 : BitVec 32).toInt = 0 := by decide
  have h999 : (999#32 : BitVec 32).toInt = 999 := by decide
  have hlt : l.toNat < 2 ^ 32 := l.isLt
  have hcond := BitVec.toInt_eq_toNat_cond l
  unfold IntOp.maxsi
  by_cases hneg : l.slt 0#32 = true
  · rw [if_pos hneg, show IntOp.minsi 999#32 0#32 = 0#32 from by decide]
    rw [BitVec.slt_iff_toInt_lt, h0] at hneg
    show 0 = min l.toInt.toNat 999
    omega
  · rw [if_neg hneg]
    rw [BitVec.slt_iff_toInt_lt, h0] at hneg
    unfold IntOp.minsi
    by_cases hbig : (999#32 : BitVec 32).slt l = true
    · rw [if_pos hbig]
      rw [BitVec.slt_iff_toInt_lt, h999] at hbig
      show 999 = min l.toInt.toNat 999
      omega
    · rw [if_neg hbig]
      rw [BitVec.slt_iff_toInt_lt, h999] at hbig
      split at hcond <;> omega

/-! ## Where the windows' blocks lie -/

/-- The windows' block indices over the grid's 32 points: windows 0 and 1 stage block `t` of rows at point `t`,
    window 2 stages the one block of the padded table. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- Entry `(r, f)` of tile `t`'s block of features is the features' entry `(4096 t + r, f)`. -/
theorem xblk_apply (c : Dev nD) (t : Fin cfg0.N) (r : Fin 4096) (f : Fin 512) (R : Fin 131072)
    (hR : R.val = 4096 * t.val + r.val) : xblk m c t (ix2 r f) = argX m c (ix2 R f) := by
  obtain ⟨e0, e1, -⟩ := idx_facts t
  show V m c main_arg0 (((cfg0.win 0).blk t).view.emb (ix2 r f)) = m ((c.tc : Thread nD τ).loc main_arg0) (ix2 R f)
  rw [V_main_arg0]
  refine congrArg _ (funext fun a => Fin.ext ?_)
  match a with
  | ⟨0, _⟩ => show win0_0.index t (0 : Fin 2) * 4096 + 1 * r.val = R.val; omega
  | ⟨1, _⟩ => show win0_0.index t (1 : Fin 2) * 512 + 1 * f.val = f.val; omega

/-- The clamped column read at row `R` is the clamp of label `R`. -/
theorem clamped_col_apply (L : S131072.Idx → BitVec 32) (R : Fin 131072) :
    shapeCast S131072x1 (minsi (broadcastInDim S131072 ![] bcast_S_S131072 (constantI S_ 32 999#32))
        (maxsi (broadcastInDim S131072 ![] bcast_S_S131072 (constantI S_ 32 0#32)) L)) shapeCasts_S131072_S131072x1 (ix2 R 0)
      = IntOp.minsi 999#32 (IntOp.maxsi 0#32 (L (ix1 R))) := by
  rw [shapeCast_apply _ _ (ix2 R (0 : Fin 1)) (ix1 R) (by
    rw [Shape.rowMajor_val_one, Shape.rowMajor_val_two]
    show R.val = R.val * 1 + 0
    omega)]
  rfl

/-- Row `r` of tile `t`'s column of stored labels is the clamp of label `4096 t + r`. -/
theorem lblk_apply (c : Dev nD) (t : Fin cfg0.N) (r : Fin 4096) (R : Fin 131072) (hR : R.val = 4096 * t.val + r.val) :
    lblk m c t (ix2 r 0) = IntOp.minsi 999#32 (IntOp.maxsi 0#32 (argL m c (ix1 R))) := by
  obtain ⟨-, -, e0, e1, -⟩ := idx_facts t
  have he : ((cfg0.win 1).blk t).view.emb (ix2 r (0 : Fin 1)) = (ix2 R (0 : Fin 1) : S131072x1.Idx) := by
    funext a; apply Fin.ext
    match a with
    | ⟨0, _⟩ => show win0_1.index t (0 : Fin 2) * 4096 + 1 * r.val = R.val; omega
    | ⟨1, _⟩ => show win0_1.index t (1 : Fin 2) * 1 + 1 * 0 = 0; omega
  show V m c main_v1 (((cfg0.win 1).blk t).view.emb (ix2 r (0 : Fin 1))) = _
  rw [he, V_main_v1]
  exact clamped_col_apply (argL m c) R

/-- The padded table read at a row below 1000 is the class table there. -/
theorem padded_apply (T : S1000x512.Idx → EReal) (k : Fin 1024) (f : Fin 512) (K : Fin 1000) (hK : k.val = K.val) :
    (truncf .bf16 (pad S1024x512 ![0, 0] ![24, 0] ![0, 0] T (sitofp (F := Ideal) .f32 (constantI S_ 32 0#32))
        pads_S1000x512_S1024x512_0240_000 h_S_) bitsLt_bf16_f32 : (⟨S1024x512, .bf16⟩ : BufTy).Contents (Elt Ideal)) (ix2 k f)
      = T (ix2 K f) := by
  show pad S1024x512 ![0, 0] ![24, 0] ![0, 0] T (sitofp (F := Ideal) .f32 (constantI S_ 32 0#32))
        pads_S1000x512_S1024x512_0240_000 h_S_ (ix2 k f) = T (ix2 K f)
  refine pad_apply_of_inside _ _ _ T _ _ _ (ix2 k f) (ix2 K f) ?_
  intro a
  match a with
  | ⟨0, _⟩ => show k.val = 0 + K.val * (0 + 1); omega
  | ⟨1, _⟩ => show f.val = 0 + f.val * (0 + 1); omega

/-- Entry `(k, f)` of the padded table as tile `t` finds it, `k` below 1000, is the class table's entry `(k, f)`. -/
theorem tblk_apply (c : Dev nD) (t : Fin cfg0.N) (k : Fin 1024) (f : Fin 512) (K : Fin 1000) (hK : k.val = K.val) :
    tblk m c t (ix2 k f) = argT m c (ix2 K f) := by
  obtain ⟨-, -, -, -, e0, e1⟩ := idx_facts t
  have he : ((cfg0.win 2).blk t).view.emb (ix2 k f) = (ix2 k f : S1024x512.Idx) := by
    funext a; apply Fin.ext
    match a with
    | ⟨0, _⟩ => show win0_2.index t (0 : Fin 2) * 1024 + 1 * k.val = k.val; omega
    | ⟨1, _⟩ => show win0_2.index t (1 : Fin 2) * 512 + 1 * f.val = f.val; omega
  show V m c main_v3 (((cfg0.win 2).blk t).view.emb (ix2 k f)) = _
  rw [he, V_main_v3]
  exact padded_apply (argT m c) k f K hK

/-! ## A tile's number -/

/-- The sample that row `r` of tile `t` holds, for a tile of the grid: no wrap. -/
theorem tileRow_val (t : Fin cfg0.N) (r : Fin 4096) : (tileRow t.val r).val = 4096 * t.val + r.val := by
  have ht : t.val < 32 := lt_of_lt_of_eq t.isLt N_0
  have hr := r.isLt
  show (4096 * t.val + r.val) % 131072 = _
  omega

/-- every stored label in a tile's column is below 1024 -/
theorem labels_lt (c : Dev nD) (t : Fin cfg0.N) (r : Fin 4096) : (lblk m c t (ix2 r 0)).toNat < 1024 := by
  rw [lblk_apply m c t r (tileRow t.val r) (tileRow_val t r), clamp_toNat]
  omega

/-- The table row a stored label selects is the row the label itself selects in the class table. -/
theorem padRow_clamp (l : BitVec 32) : (padRow (IntOp.minsi 999#32 (IntOp.maxsi 0#32 l))).val = (rowOf l).val := by
  show (IntOp.minsi 999#32 (IntOp.maxsi 0#32 l)).toNat % 1024 = min l.toInt.toNat 999
  rw [clamp_toNat]
  omega

/-- One squared error of a tile, from its blocks, is the squared error of the arguments at the sample the row holds. -/
theorem tileSq_eq (c : Dev nD) (t : Fin cfg0.N) (r : Fin 4096) (f : Fin 512) :
    tileSq (xblk m c t) (lblk m c t) (tblk m c t) r f = sqErr (argX m c) (argL m c) (argT m c) (tileRow t.val r) f := by
  unfold tileSq sqErr
  rw [xblk_apply m c t r f (tileRow t.val r) (tileRow_val t r), lblk_apply m c t r (tileRow t.val r) (tileRow_val t r),
    tblk_apply m c t _ f (rowOf (argL m c (ix1 (tileRow t.val r)))) (padRow_clamp _)]

/-- a tile's number, from its blocks, is the tile's squared errors of the three ARGUMENTS -/
theorem tileNum_eq (c : Dev nD) (n : ℕ) (hn : n < 32) : tileNum m c n = tileErr (argX m c) (argL m c) (argT m c) n := by
  have hN : n < cfg0.N := by rw [show cfg0.N = 32 from N_0]; exact hn
  have h := tileNum_of_lt m c ⟨n, hN⟩
  rw [show ((⟨n, hN⟩ : Fin cfg0.N).val) = n from rfl] at h
  rw [h]
  unfold tileTotal tileErr
  exact Finset.sum_congr rfl fun r _ => Finset.sum_congr rfl fun f _ => tileSq_eq m c ⟨n, hN⟩ r f

end Cert.KernelIdeal.BlockValue

end
-- ==== Proof.OneHot.lean ====
/-
  The matrix with a one where a row's stored label names the column and zeros elsewhere, times the padded table, is
  the table's row at the label: at entry (r, f) the product is a sum over the 1024 columns k of onehot(r, k) · table(k, f),
  and every term but the one at k = label(r) is zero times something, which is zero on the extended reals.
-/
import proofs.«429028_j79723182948888_3_alg».proof.Proof.Gen.KernelIdeal
import proofs.«429028_j79723182948888_3_alg».proof.Proof.Spec
import Idealize.ShloMosaic.PureOps.Ideal.Laws
import Idealize.ShloMosaic.Lib.Pipeline.Value
import Idealize.ShloMosaic.Lib.ValueIdx

noncomputable section

open scoped BigOperators

namespace Cert.KernelIdeal.PointValue

open Cert.KernelIdeal Cert.CenterLoss
open Idealize.ShloMosaic Idealize.ShloMosaic.ValueIdx

/-! ## The product's operand indices, axis by axis -/

theorem lhs_row (j : S512x512.Idx) (k : dot_S512x1024_S1024x512_S512x512_1_0_0_1_n_n.contr.Idx) :
    (dot_S512x1024_S1024x512_S512x512_1_0_0_1_n_n.lhsIdx j k 0).val = (j 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl

theorem lhs_col (j : S512x512.Idx) (k : dot_S512x1024_S1024x512_S512x512_1_0_0_1_n_n.contr.Idx) :
    (dot_S512x1024_S1024x512_S512x512_1_0_0_1_n_n.lhsIdx j k 1).val = (k ⟨0, by decide⟩).val :=
  DotDims.lhsIdx_val_of_single _ rfl j k

theorem rhs_row (j : S512x512.Idx) (k : dot_S512x1024_S1024x512_S512x512_1_0_0_1_n_n.contr.Idx) :
    (dot_S512x1024_S1024x512_S512x512_1_0_0_1_n_n.rhsIdx j k 0).val = (k ⟨0, by decide⟩).val :=
  DotDims.rhsIdx_val_of_single _ rfl j k

theorem rhs_col (j : S512x512.Idx) (k : dot_S512x1024_S1024x512_S512x512_1_0_0_1_n_n.contr.Idx) :
    (dot_S512x1024_S1024x512_S512x512_1_0_0_1_n_n.rhsIdx j k 1).val = (j 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-! ## The one-hot matrix and its product with the table -/

/-- Comparing a word with itself for equality answers the one bit; two different words, the zero bit. -/
theorem cmpi_eq_self (a : BitVec 32) : IntOp.cmpi .eq a a = 1#1 := by simp [IntOp.cmpi]
theorem cmpi_eq_of_ne {a b : BitVec 32} (h : a ≠ b) : IntOp.cmpi .eq a b = 0#1 := by
  have hb : (a == b) = false := beq_eq_false_iff_ne.mpr h
  simp [IntOp.cmpi, hb]

/-- Entry `(r, k)` of the one-hot matrix the program builds from a run's stored labels: one where the label of row `r` is
    the word `k`, zero elsewhere. -/
theorem oneHot_apply (lb : IVec S512x1 32) (sc : S512x1.ShapeCasts S512x1) (bc : S512x1.Broadcasts S512x1024)
    (io : S512x1024.Iotas .tc 32 [1]) (h1 : 1 < 32) (hb : FTy.bits .bf16 < FTy.bits .f32) (r : Fin 512) (k : Fin 1024) :
    (truncf .bf16 (sitofp .f32 (extui 32 (cmpi .eq (broadcastTo S512x1024 (shapeCast S512x1 lb sc) bc)
        (iota .tc S512x1024 32 [1] io)) h1) : FVec Ideal S512x1024 .f32) hb : FVec Ideal S512x1024 .bf16) (ix2 r k)
      = if lb (ix2 r 0) = BitVec.ofNat 32 k.val then 1 else 0 := by
  have e1 : broadcastTo S512x1024 (shapeCast S512x1 lb sc) bc (ix2 r k) = lb (ix2 r 0) := by
    rw [shapeCast_self]
    exact broadcastTo_apply lb bc (ix2 r k) (ix2 r 0) (fun a => match a with
      | ⟨0, _⟩ => by show r.val = if (512 : ℕ) = 1 then 0 else r.val; rw [if_neg (by decide)]
      | ⟨1, _⟩ => by show (0 : ℕ) = if (1 : ℕ) = 1 then 0 else k.val; rw [if_pos rfl])
  have e2 : iota .tc S512x1024 32 [1] io (ix2 r k) = BitVec.ofNat 32 k.val := iota_single_apply _ _ _ _ io _
  show ((((IntOp.cmpi .eq (broadcastTo S512x1024 (shapeCast S512x1 lb sc) bc (ix2 r k))
      (iota .tc S512x1024 32 [1] io (ix2 r k))).setWidth 32).toInt : ℝ) : EReal) = _
  rw [e1, e2]
  by_cases h : lb (ix2 r 0) = BitVec.ofNat 32 k.val
  · rw [if_pos h, h]
    rw [cmpi_eq_self, show ((1#1 : BitVec 1).setWidth 32).toInt = 1 from by decide]; norm_num
  · rw [if_neg h]
    rw [cmpi_eq_of_ne h, show ((0#1 : BitVec 1).setWidth 32).toInt = 0 from by decide]; norm_num

/-- So the product of that matrix with the padded table reads, at `(r, f)`, the table's row at the label of row `r`. -/
theorem gathered_apply (lb : IVec S512x1 32) (tb : FVec Ideal S1024x512 .bf16) (sc : S512x1.ShapeCasts S512x1)
    (bc : S512x1.Broadcasts S512x1024) (io : S512x1024.Iotas .tc 32 [1]) (h1 : 1 < 32) (hb : FTy.bits .bf16 < FTy.bits .f32)
    (r : Fin 512) (f : Fin 512) (hl : (lb (ix2 r 0)).toNat < 1024) :
    matmul dot_S512x1024_S1024x512_S512x512_1_0_0_1_n_n none
        (truncf .bf16 (sitofp .f32 (extui 32 (cmpi .eq (broadcastTo S512x1024 (shapeCast S512x1 lb sc) bc)
          (iota .tc S512x1024 32 [1] io)) h1) : FVec Ideal S512x1024 .f32) hb : FVec Ideal S512x1024 .bf16)
        tb (constant S512x512 .f32 0x00000000#32) (ix2 r f)
      = tb (ix2 (padRow (lb (ix2 r 0))) f) := by
  refine (Ideal.matmul_constant_zero_apply dot_S512x1024_S1024x512_S512x512_1_0_0_1_n_n none _ tb (ix2 r f)).trans ?_
  rw [← Equiv.sum_comp (contrEquiv1 dot_S512x1024_S1024x512_S512x512_1_0_0_1_n_n 1024 rfl rfl).symm]
  have hL : ∀ k : Fin 1024, dot_S512x1024_S1024x512_S512x512_1_0_0_1_n_n.lhsIdx (ix2 r f)
      ((contrEquiv1 dot_S512x1024_S1024x512_S512x512_1_0_0_1_n_n 1024 rfl rfl).symm k) = ix2 r k := fun k =>
    Shape.idx_ext₂ (lhs_row _ _) ((lhs_col _ _).trans (contrEquiv1_symm_val _ 1024 rfl rfl k))
  have hR : ∀ k : Fin 1024, dot_S512x1024_S1024x512_S512x512_1_0_0_1_n_n.rhsIdx (ix2 r f)
      ((contrEquiv1 dot_S512x1024_S1024x512_S512x512_1_0_0_1_n_n 1024 rfl rfl).symm k) = ix2 k f := fun k =>
    Shape.idx_ext₂ ((rhs_row _ _).trans (contrEquiv1_symm_val _ 1024 rfl rfl k)) (rhs_col _ _)
  simp only [hL, hR]
  have hk0 : lb (ix2 r 0) = BitVec.ofNat 32 (padRow (lb (ix2 r 0))).val := by
    show _ = BitVec.ofNat 32 ((lb (ix2 r 0)).toNat % 1024)
    rw [Nat.mod_eq_of_lt hl, BitVec.ofNat_toNat, BitVec.setWidth_eq]
  rw [Finset.sum_eq_single (padRow (lb (ix2 r 0)))]
  · rw [oneHot_apply, if_pos hk0, one_mul]
  · intro k _ hk
    rw [oneHot_apply, if_neg, zero_mul]
    intro h
    apply hk
    apply Fin.ext
    show k.val = (lb (ix2 r 0)).toNat % 1024
    rw [h, BitVec.toNat_ofNat, Nat.mod_eq_of_lt (by have := k.isLt; omega : k.val < 2 ^ 32), Nat.mod_eq_of_lt k.isLt]
  · intro h; exact absurd (Finset.mem_univ _) h

end Cert.KernelIdeal.PointValue

end
-- ==== Proof.Body.lean ====
/-
  The arithmetic of the tiled program's body on one tile, over the extended reals.

  A tile is cut into eight runs of 512 rows. For a run the body forms the matrix of ones and zeros that marks each
  row's stored label among 1024 columns, multiplies it with the padded table (row r of the product is the table's row at
  that label), subtracts the product from the run's features, squares, sums each row's 512 squares and then the 512 row
  sums: the run's number. The eight numbers are added, one after the other, to a sum that starts from zero, and that
  sum is added to the running sum the body found. Sums of extended reals may be regrouped freely, so the result is the
  running sum plus the tile's squared errors summed over all 4096 rows. The body's text cuts these steps into pieces
  at places that follow the count of its statements, not the runs; one lemma per piece says what it computes.
-/
import proofs.«429028_j79723182948888_3_alg».proof.Proof.Gen.KernelIdeal.Skeleton
import proofs.«429028_j79723182948888_3_alg».proof.Proof.OneHot
import proofs.«429028_j79723182948888_3_alg».proof.Proof.SumAlgebra
import Idealize.ShloMosaic.PureOps.Ideal.Laws
import Idealize.ShloMosaic.Lib.Pipeline.Value
import Idealize.ShloMosaic.Lib.ValueIdx

set_option maxRecDepth 16384

noncomputable section

open scoped BigOperators

namespace Cert.KernelIdeal.PointValue

open Cert.KernelIdeal Cert.KernelIdeal.Gen Cert.CenterLoss
open Idealize.ShloMosaic Idealize.ShloMosaic.ValueIdx

/-! ## One run of 512 rows -/

/-- The squared error of row `r` of a run at feature `f`, from the run's features `xb`, its stored labels `lb` and the
    padded table `tb`. -/
def runSq (xb : FVec Ideal S512x512 .f32) (lb : IVec S512x1 32) (tb : FVec Ideal S1024x512 .bf16) (r f : Fin 512) : EReal :=
  (xb (ix2 r f) - tb (ix2 (padRow (lb (ix2 r 0))) f)) * (xb (ix2 r f) - tb (ix2 (padRow (lb (ix2 r 0))) f))

/-- A run's number: its squared errors summed, rows outside, features inside. -/
def runSum (xb : FVec Ideal S512x512 .f32) (lb : IVec S512x1 32) (tb : FVec Ideal S1024x512 .bf16) : EReal :=
  ∑ r : Fin 512, ∑ f : Fin 512, runSq xb lb tb r f

/-- Each row's 512 entries summed, the column of row sums then summed, through the two casts that keep a unit axis:
    the double sum of the matrix. -/
theorem lane_total (sq : FVec Ideal S512x512 .f32) (hr1 : S512x512.Reduces [1] S512) (sc1 : S512.ShapeCasts S512x1)
    (hr0 : S512x1.Reduces [0] S1) (sc0 : S1.ShapeCasts S1x1) (hφ : FKind.Formats .f32)
    (ha : (0x00000000#32 : BitVec 32) = FKind.add.neutral .f32 hφ) (y : S1x1.Idx) :
    shapeCast S1x1 (multiReduction .add [0] S1 (shapeCast S512x1 (multiReduction .add [1] S512 sq 0x00000000#32 hr1 hφ ha) sc1)
        0x00000000#32 hr0 hφ ha) sc0 y
      = ∑ r : Fin 512, ∑ f : Fin 512, sq (ix2 r f) := by
  refine (shapeCast_apply _ sc0 y (ix1 (0 : Fin 1)) ?_).trans ?_
  · rw [Shape.rowMajor_val_one, Shape.rowMajor_val_two]
    have h0 : (y 0).val = 0 := by have := (y 0).isLt; simp at this; omega
    have h1 : (y 1).val = 0 := by have := (y 1).isLt; simp at this; omega
    show (0 : ℕ) = (y 0).val * 1 + (y 1).val
    rw [h0, h1]
  refine (Ideal.multiReduction_add_single _ 0x00000000#32 hr0 hφ ha (ix1 (0 : Fin 1))).trans ?_
  refine Finset.sum_congr rfl fun r _ => ?_
  refine (shapeCast_apply _ sc1 (hr0.lift (ix1 (0 : Fin 1)) r) (ix1 r) ?_).trans ?_
  · rw [Shape.rowMajor_val_one, Shape.rowMajor_val_two]
    show r.val = r.val * 1 + 0
    omega
  refine (Ideal.multiReduction_add_single sq 0x00000000#32 hr1 hφ ha (ix1 r)).trans ?_
  exact Finset.sum_congr rfl fun f _ => congrArg sq (Shape.idx_ext₂ rfl rfl)

/-- The square of features minus the one-hot product, at `(r, f)`. -/
theorem sq_apply (xb : FVec Ideal S512x512 .f32) (lb : IVec S512x1 32) (tb : FVec Ideal S1024x512 .bf16)
    (sc : S512x1.ShapeCasts S512x1) (bc : S512x1.Broadcasts S512x1024) (io : S512x1024.Iotas .tc 32 [1]) (h1 : 1 < 32)
    (hb : FTy.bits .bf16 < FTy.bits .f32) (r f : Fin 512) (hl : (lb (ix2 r 0)).toNat < 1024) :
    mulf (subf xb (matmul dot_S512x1024_S1024x512_S512x512_1_0_0_1_n_n none
        (truncf .bf16 (sitofp .f32 (extui 32 (cmpi .eq (broadcastTo S512x1024 (shapeCast S512x1 lb sc) bc)
          (iota .tc S512x1024 32 [1] io)) h1) : FVec Ideal S512x1024 .f32) hb : FVec Ideal S512x1024 .bf16)
        tb (constant S512x512 .f32 0x00000000#32)))
      (subf xb (matmul dot_S512x1024_S1024x512_S512x512_1_0_0_1_n_n none
        (truncf .bf16 (sitofp .f32 (extui 32 (cmpi .eq (broadcastTo S512x1024 (shapeCast S512x1 lb sc) bc)
          (iota .tc S512x1024 32 [1] io)) h1) : FVec Ideal S512x1024 .f32) hb : FVec Ideal S512x1024 .bf16)
        tb (constant S512x512 .f32 0x00000000#32))) (ix2 r f)
      = runSq xb lb tb r f := by
  show (xb (ix2 r f) - _) * (xb (ix2 r f) - _) = _
  rw [gathered_apply lb tb sc bc io h1 hb r f hl]
  rfl

/-- A column of 512 numbers summed, through the cast that keeps a unit axis. -/
theorem col_total (col : FVec Ideal S512x1 .f32) (hr0 : S512x1.Reduces [0] S1) (sc0 : S1.ShapeCasts S1x1) (hφ : FKind.Formats .f32)
    (ha : (0x00000000#32 : BitVec 32) = FKind.add.neutral .f32 hφ) (y : S1x1.Idx) :
    shapeCast S1x1 (multiReduction .add [0] S1 col 0x00000000#32 hr0 hφ ha) sc0 y = ∑ r : Fin 512, col (ix2 r 0) := by
  refine (shapeCast_apply _ sc0 y (ix1 (0 : Fin 1)) ?_).trans ?_
  · rw [Shape.rowMajor_val_one, Shape.rowMajor_val_two]
    have h0 : (y 0).val = 0 := by have := (y 0).isLt; simp at this; omega
    have h1 : (y 1).val = 0 := by have := (y 1).isLt; simp at this; omega
    show (0 : ℕ) = (y 0).val * 1 + (y 1).val
    rw [h0, h1]
  refine (Ideal.multiReduction_add_single col 0x00000000#32 hr0 hφ ha (ix1 (0 : Fin 1))).trans ?_
  exact Finset.sum_congr rfl fun r _ => congrArg col (Shape.idx_ext₂ rfl rfl)

/-- Row `r`'s 512 entries summed, as the column entry `(r, 0)`. -/
theorem row_sum (sq : FVec Ideal S512x512 .f32) (hr1 : S512x512.Reduces [1] S512) (sc1 : S512.ShapeCasts S512x1)
    (hφ : FKind.Formats .f32) (ha : (0x00000000#32 : BitVec 32) = FKind.add.neutral .f32 hφ) (r : Fin 512) :
    shapeCast S512x1 (multiReduction .add [1] S512 sq 0x00000000#32 hr1 hφ ha) sc1 (ix2 r (0 : Fin 1)) = ∑ f : Fin 512, sq (ix2 r f) := by
  refine (shapeCast_apply _ sc1 (ix2 r (0 : Fin 1)) (ix1 r) ?_).trans ?_
  · rw [Shape.rowMajor_val_one, Shape.rowMajor_val_two]
    show r.val = r.val * 1 + 0
    omega
  refine (Ideal.multiReduction_add_single sq 0x00000000#32 hr1 hφ ha (ix1 r)).trans ?_
  exact Finset.sum_congr rfl fun f _ => congrArg sq (Shape.idx_ext₂ rfl rfl)

/-- One run's number, as the program computes it. -/
theorem run_total (xb : FVec Ideal S512x512 .f32) (lb : IVec S512x1 32) (tb : FVec Ideal S1024x512 .bf16)
    (hl : ∀ r : Fin 512, (lb (ix2 r 0)).toNat < 1024)
    (sc : S512x1.ShapeCasts S512x1) (bc : S512x1.Broadcasts S512x1024) (io : S512x1024.Iotas .tc 32 [1]) (h1 : 1 < 32)
    (hb : FTy.bits .bf16 < FTy.bits .f32) (hr1 : S512x512.Reduces [1] S512) (sc1 : S512.ShapeCasts S512x1)
    (hr0 : S512x1.Reduces [0] S1) (sc0 : S1.ShapeCasts S1x1) (hφ : FKind.Formats .f32)
    (ha : (0x00000000#32 : BitVec 32) = FKind.add.neutral .f32 hφ) (y : S1x1.Idx) :
    shapeCast S1x1 (multiReduction .add [0] S1 (shapeCast S512x1 (multiReduction .add [1] S512
        (mulf (subf xb (matmul dot_S512x1024_S1024x512_S512x512_1_0_0_1_n_n none
            (truncf .bf16 (sitofp .f32 (extui 32 (cmpi .eq (broadcastTo S512x1024 (shapeCast S512x1 lb sc) bc)
              (iota .tc S512x1024 32 [1] io)) h1) : FVec Ideal S512x1024 .f32) hb : FVec Ideal S512x1024 .bf16)
            tb (constant S512x512 .f32 0x00000000#32)))
          (subf xb (matmul dot_S512x1024_S1024x512_S512x512_1_0_0_1_n_n none
            (truncf .bf16 (sitofp .f32 (extui 32 (cmpi .eq (broadcastTo S512x1024 (shapeCast S512x1 lb sc) bc)
              (iota .tc S512x1024 32 [1] io)) h1) : FVec Ideal S512x1024 .f32) hb : FVec Ideal S512x1024 .bf16)
            tb (constant S512x512 .f32 0x00000000#32))))
        0x00000000#32 hr1 hφ ha) sc1) 0x00000000#32 hr0 hφ ha) sc0 y
      = runSum xb lb tb := by
  refine (lane_total _ hr1 sc1 hr0 sc0 hφ ha y).trans ?_
  exact Finset.sum_congr rfl fun r _ => Finset.sum_congr rfl fun f _ => sq_apply xb lb tb sc bc io h1 hb r f (hl r)

/-! ## The payloads -/

/-- The table, cast to its own shape. -/
theorem pay4_eq (v3 : FVec Ideal S1024x512 .bf16) : k0_pay4 (F := Ideal) v3 = v3 := shapeCast_self v3 _

/-- The sum handed on, cast to its own shape. -/
theorem pay1_eq (v : FVec Ideal S1x1 .f32) : k0_pay1 (F := Ideal) v = v := shapeCast_self v _

/-- The zero the first tile of a half stores. -/
theorem pay3_apply (y : S1x1.Idx) : k0_pay3 (F := Ideal) y = 0 := by
  unfold k0_pay3
  refine (congrFun (shapeCast_self (broadcast S1x1 (Scalar.ofBits (F := Ideal) .f32 0x00000000#32)) _) y).trans ?_
  exact Ideal.ofBits_zero_f32

/-- Run 0, added to zero. -/
theorem pay5_apply (v3 : FVec Ideal S1024x512 .bf16) (v10 : FVec Ideal S512x512 .f32) (v12 : IVec S512x1 32)
    (h12 : ∀ r : Fin 512, (v12 (ix2 r 0)).toNat < 1024) (y : S1x1.Idx) :
    k0_pay5 (F := Ideal) v3 v10 v12 y = runSum v10 v12 (k0_pay4 (F := Ideal) v3) := by
  refine (congrArg (Ideal.ofBits .f32 0x00000000#32 + ·) (run_total v10 v12 (k0_pay4 (F := Ideal) v3) h12 _ _ _ _ _ _ _ _ _ _ _ y)).trans ?_
  rw [Ideal.ofBits_zero_f32, zero_add]

/-- Run 1's product with the table. -/
theorem pay6_apply (v3 : FVec Ideal S1024x512 .bf16) (v32 : IVec S512x1 32) (r f : Fin 512) (h : (v32 (ix2 r 0)).toNat < 1024) :
    k0_pay6 (F := Ideal) v3 v32 (ix2 r f) = k0_pay4 (F := Ideal) v3 (ix2 (padRow (v32 (ix2 r 0))) f) :=
  gathered_apply v32 (k0_pay4 (F := Ideal) v3) _ _ _ _ _ r f h

/-- Run 1 finished from its product, and run 2. -/
theorem pay7_apply (v4 : FVec Ideal S1024x512 .bf16) (io : S512x1024.Iotas .tc 32 [1]) (v26 : FVec Ideal S1x1 .f32)
    (v30 v39 : FVec Ideal S512x512 .f32) (v50 : FVec Ideal S512x512 .f32) (v52 : IVec S512x1 32)
    (h52 : ∀ r : Fin 512, (v52 (ix2 r 0)).toNat < 1024) (y : S1x1.Idx) :
    k0_pay7 (F := Ideal) v4 (iota .tc S512x1024 32 [1] io) v26 v30 v39 v50 v52 y
      = (v26 y + ∑ r : Fin 512, ∑ f : Fin 512, (v30 (ix2 r f) - v39 (ix2 r f)) * (v30 (ix2 r f) - v39 (ix2 r f)))
        + runSum v50 v52 v4 :=
  congrArg₂ (· + ·) (congrArg (v26 y + ·) (lane_total (mulf (subf v30 v39) (subf v30 v39)) _ _ _ _ _ _ y))
    (run_total v50 v52 v4 h52 _ _ io _ _ _ _ _ _ _ _ y)

/-- Run 3's row sums. -/
theorem pay8_apply (v4 : FVec Ideal S1024x512 .bf16) (io : S512x1024.Iotas .tc 32 [1]) (v70 : FVec Ideal S512x512 .f32)
    (v72 : IVec S512x1 32) (r : Fin 512) (h : (v72 (ix2 r 0)).toNat < 1024) :
    k0_pay8 (F := Ideal) v4 (iota .tc S512x1024 32 [1] io) v70 v72 (ix2 r (0 : Fin 1)) = ∑ f : Fin 512, runSq v70 v72 v4 r f := by
  refine (row_sum _ _ _ _ _ r).trans ?_
  exact Finset.sum_congr rfl fun f _ => sq_apply v70 v72 v4 _ _ io _ _ r f h

/-- Run 3 finished from its row sums, and runs 4 and 5. -/
theorem pay9_apply (v4 : FVec Ideal S1024x512 .bf16) (io : S512x1024.Iotas .tc 32 [1]) (v66 : FVec Ideal S1x1 .f32)
    (v83 : FVec Ideal S512x1 .f32) (v90 : FVec Ideal S512x512 .f32) (v92 : IVec S512x1 32) (v110 : FVec Ideal S512x512 .f32)
    (v112 : IVec S512x1 32) (h92 : ∀ r : Fin 512, (v92 (ix2 r 0)).toNat < 1024)
    (h112 : ∀ r : Fin 512, (v112 (ix2 r 0)).toNat < 1024) (y : S1x1.Idx) :
    k0_pay9 (F := Ideal) v4 (iota .tc S512x1024 32 [1] io) v66 v83 v90 v92 v110 v112 y
      = ((v66 y + ∑ r : Fin 512, v83 (ix2 r 0)) + runSum v90 v92 v4) + runSum v110 v112 v4 :=
  congrArg₂ (· + ·) (congrArg₂ (· + ·) (congrArg (v66 y + ·) (col_total v83 _ _ _ _ y))
    (run_total v90 v92 v4 h92 _ _ io _ _ _ _ _ _ _ _ y)) (run_total v110 v112 v4 h112 _ _ io _ _ _ _ _ _ _ _ y)

/-- Runs 6 and 7, and the whole tile's number added to the running sum found. -/
theorem pay10_apply (v4 : FVec Ideal S1024x512 .bf16) (io : S512x1024.Iotas .tc 32 [1]) (v126 : FVec Ideal S1x1 .f32)
    (v130 : FVec Ideal S512x512 .f32) (v132 : IVec S512x1 32) (v150 : FVec Ideal S512x512 .f32) (v152 : IVec S512x1 32)
    (v167 : FVec Ideal S1x1 .f32) (h132 : ∀ r : Fin 512, (v132 (ix2 r 0)).toNat < 1024)
    (h152 : ∀ r : Fin 512, (v152 (ix2 r 0)).toNat < 1024) (y : S1x1.Idx) :
    k0_pay10 (F := Ideal) v4 (iota .tc S512x1024 32 [1] io) v126 v130 v132 v150 v152 v167 y
      = v167 y + ((v126 y + runSum v130 v132 v4) + runSum v150 v152 v4) :=
  congrArg (v167 y + ·) (congrArg₂ (· + ·) (congrArg (v126 y + ·) (run_total v130 v132 v4 h132 _ _ io _ _ _ _ _ _ _ _ y))
    (run_total v150 v152 v4 h152 _ _ io _ _ _ _ _ _ _ _ y))

/-- The half's sum, scaled by `P` and then `Q`, in every cell of the block. -/
theorem pay2_apply (v175 : FVec Ideal S1x1 .f32) (o : S8x128.Idx) :
    k0_pay2 (F := Ideal) v175 o
      = (v175 (ix2 0 0) * Ideal.ofBits .f32 0x32800000#32) * Ideal.ofBits .f32 0x3A800000#32 := by
  refine congrArg (· * Ideal.ofBits .f32 0x3A800000#32) ?_
  refine (broadcastTo_apply _ _ o (ix2 (0 : Fin 1) (0 : Fin 1)) (fun a => match a with
    | ⟨0, _⟩ => by show (0 : ℕ) = if (1 : ℕ) = 1 then 0 else _; rw [if_pos rfl]
    | ⟨1, _⟩ => by show (0 : ℕ) = if (1 : ℕ) = 1 then 0 else _; rw [if_pos rfl])).trans ?_
  exact congrFun (shapeCast_self _ _) _

/-! ## The eight runs are the tile -/

/-- A block loaded through the rectangle of `b0` rows from row `o` reads, at `(r, f)`, its operand at `(o + r, f)`. -/
theorem ld_rows {N0 N1 b0 b1 : ℕ} {e : EltTy} (X : (⟨2, ![N0, N1]⟩ : Shape).Idx → Elt Ideal e) (o : ℕ)
    (inb : ∀ a, (![o, 0] : Fin 2 → ℕ) a + (⟨2, ![b0, b1]⟩ : Shape).size a ≤ (⟨2, ![N0, N1]⟩ : Shape).size a)
    (r : Fin b0) (f : Fin b1) (h0 : o + r.val < N0) (h1 : f.val < N1) :
    View.ld (Val := Elt Ideal) (e' := e) X (Rect.unit (s := ⟨2, ![N0, N1]⟩) ![o, 0] (⟨2, ![b0, b1]⟩ : Shape).size inb) (ix2 r f)
      = X (ix2 ⟨o + r.val, h0⟩ ⟨f.val, h1⟩) := by
  show X _ = X _
  congr 1
  exact Shape.idx_ext₂ (by show o + 1 * r.val = o + r.val; omega) (by show 0 + 1 * f.val = f.val; omega)

/-- The number of the run loaded from row `o = 512 j` of a tile is the tile's squared errors over rows
    `512 j … 512 j + 511`. -/
theorem runSum_ld (x0 : FVec Ideal S4096x512 .f32) (x1 : IVec S4096x1 32) (x2 : FVec Ideal S1024x512 .bf16) (j : Fin 8) (o : ℕ)
    (ho : o = 512 * j.val)
    (inbX : ∀ a, (![o, 0] : Fin 2 → ℕ) a + S512x512.size a ≤ S4096x512.size a)
    (inbL : ∀ a, (![o, 0] : Fin 2 → ℕ) a + S512x1.size a ≤ S4096x1.size a) :
    runSum (View.ld (Val := Elt Ideal) (e' := .f32) x0 (Rect.unit (s := S4096x512) ![o, 0] S512x512.size inbX))
        (View.ld (Val := Elt Ideal) (e' := .i32) x1 (Rect.unit (s := S4096x1) ![o, 0] S512x1.size inbL)) x2
      = ∑ r : Fin 512, ∑ f : Fin 512, tileSq x0 x1 x2 ⟨512 * j.val + r.val, by have := j.isLt; have := r.isLt; omega⟩ f := by
  subst ho
  refine Finset.sum_congr rfl fun r _ => Finset.sum_congr rfl fun f _ => ?_
  have hr : 512 * j.val + r.val < 4096 := by have := j.isLt; have := r.isLt; omega
  have eX := ld_rows (e := .f32) x0 (512 * j.val) inbX r f hr f.isLt
  have eL := ld_rows (e := .i32) x1 (512 * j.val) inbL r (0 : Fin 1) hr Nat.one_pos
  unfold runSq tileSq
  rw [eX, eL]

/-- A tile's squared errors, summed, are its eight runs' numbers. -/
theorem tileTotal_runs (x0 : FVec Ideal S4096x512 .f32) (x1 : IVec S4096x1 32) (x2 : FVec Ideal S1024x512 .bf16) :
    tileTotal x0 x1 x2
      = ∑ j : Fin 8, ∑ r : Fin 512, ∑ f : Fin 512, tileSq x0 x1 x2 ⟨512 * j.val + r.val, by have := j.isLt; have := r.isLt; omega⟩ f :=
  sum_fin_mul 8 512 rfl fun r => ∑ f : Fin 512, tileSq x0 x1 x2 r f

/-- The stored labels of a run are those of its rows of the tile: below 1024 when the tile's are. -/
theorem ld_labels_lt (x1 : IVec S4096x1 32) (hx1 : ∀ r : Fin 4096, (x1 (ix2 r 0)).toNat < 1024) (o : ℕ) (ho : o + 512 ≤ 4096)
    (inbL : ∀ a, (![o, 0] : Fin 2 → ℕ) a + S512x1.size a ≤ S4096x1.size a) (r : Fin 512) :
    (View.ld (Val := Elt Ideal) (e' := .i32) x1 (Rect.unit (s := S4096x1) ![o, 0] S512x1.size inbL) (ix2 r 0)).toNat < 1024 := by
  have hr : o + r.val < 4096 := by have := r.isLt; omega
  have eL := ld_rows (e := .i32) x1 o inbL r (0 : Fin 1) hr Nat.one_pos
  rw [eL]
  exact hx1 ⟨o + r.val, hr⟩

/-! ## The body's arithmetic on a tile -/

/-- THE BODY'S NUMBER. From a tile's features `x0`, its stored labels `x1` (all below 1024), the padded table `x2` and the
    running sum `acc` found, the value the body stores back is `acc` plus the tile's squared errors summed: the eight
    runs' numbers, added one after the other to a sum that starts from zero, are the tile's total. -/
theorem body_apply (x0 : FVec Ideal S4096x512 .f32) (x1 : IVec S4096x1 32) (x2 : FVec Ideal S1024x512 .bf16)
    (io : S512x1024.Iotas .tc 32 [1]) (acc : FVec Ideal S1x1 .f32) (hx1 : ∀ r : Fin 4096, (x1 (ix2 r 0)).toNat < 1024)
    (iX0 : ∀ a, (![0, 0] : Fin 2 → ℕ) a + S512x512.size a ≤ S4096x512.size a) (iL0 : ∀ a, (![0, 0] : Fin 2 → ℕ) a + S512x1.size a ≤ S4096x1.size a)
    (iX1 : ∀ a, (![512, 0] : Fin 2 → ℕ) a + S512x512.size a ≤ S4096x512.size a) (iL1 : ∀ a, (![512, 0] : Fin 2 → ℕ) a + S512x1.size a ≤ S4096x1.size a)
    (iX2 : ∀ a, (![1024, 0] : Fin 2 → ℕ) a + S512x512.size a ≤ S4096x512.size a) (iL2 : ∀ a, (![1024, 0] : Fin 2 → ℕ) a + S512x1.size a ≤ S4096x1.size a)
    (iX3 : ∀ a, (![1536, 0] : Fin 2 → ℕ) a + S512x512.size a ≤ S4096x512.size a) (iL3 : ∀ a, (![1536, 0] : Fin 2 → ℕ) a + S512x1.size a ≤ S4096x1.size a)
    (iX4 : ∀ a, (![2048, 0] : Fin 2 → ℕ) a + S512x512.size a ≤ S4096x512.size a) (iL4 : ∀ a, (![2048, 0] : Fin 2 → ℕ) a + S512x1.size a ≤ S4096x1.size a)
    (iX5 : ∀ a, (![2560, 0] : Fin 2 → ℕ) a + S512x512.size a ≤ S4096x512.size a) (iL5 : ∀ a, (![2560, 0] : Fin 2 → ℕ) a + S512x1.size a ≤ S4096x1.size a)
    (iX6 : ∀ a, (![3072, 0] : Fin 2 → ℕ) a + S512x512.size a ≤ S4096x512.size a) (iL6 : ∀ a, (![3072, 0] : Fin 2 → ℕ) a + S512x1.size a ≤ S4096x1.size a)
    (iX7 : ∀ a, (![3584, 0] : Fin 2 → ℕ) a + S512x512.size a ≤ S4096x512.size a) (iL7 : ∀ a, (![3584, 0] : Fin 2 → ℕ) a + S512x1.size a ≤ S4096x1.size a)
    (y : S1x1.Idx) :
    k0_pay1 (F := Ideal)
      (k0_pay10 (k0_pay4 (F := Ideal) x2) (iota .tc S512x1024 32 [1] io)
        (k0_pay9 (k0_pay4 (F := Ideal) x2) (iota .tc S512x1024 32 [1] io)
          (k0_pay7 (k0_pay4 (F := Ideal) x2) (iota .tc S512x1024 32 [1] io)
            (k0_pay5 x2 (View.ld (Val := Elt Ideal) (e' := .f32) x0 (Rect.unit (s := S4096x512) ![0, 0] S512x512.size iX0)) (View.ld (Val := Elt Ideal) (e' := .i32) x1 (Rect.unit (s := S4096x1) ![0, 0] S512x1.size iL0)))
            (View.ld (Val := Elt Ideal) (e' := .f32) x0 (Rect.unit (s := S4096x512) ![512, 0] S512x512.size iX1)) (k0_pay6 x2 (View.ld (Val := Elt Ideal) (e' := .i32) x1 (Rect.unit (s := S4096x1) ![512, 0] S512x1.size iL1)))
            (View.ld (Val := Elt Ideal) (e' := .f32) x0 (Rect.unit (s := S4096x512) ![1024, 0] S512x512.size iX2)) (View.ld (Val := Elt Ideal) (e' := .i32) x1 (Rect.unit (s := S4096x1) ![1024, 0] S512x1.size iL2)))
          (k0_pay8 (k0_pay4 (F := Ideal) x2) (iota .tc S512x1024 32 [1] io) (View.ld (Val := Elt Ideal) (e' := .f32) x0 (Rect.unit (s := S4096x512) ![1536, 0] S512x512.size iX3)) (View.ld (Val := Elt Ideal) (e' := .i32) x1 (Rect.unit (s := S4096x1) ![1536, 0] S512x1.size iL3)))
          (View.ld (Val := Elt Ideal) (e' := .f32) x0 (Rect.unit (s := S4096x512) ![2048, 0] S512x512.size iX4)) (View.ld (Val := Elt Ideal) (e' := .i32) x1 (Rect.unit (s := S4096x1) ![2048, 0] S512x1.size iL4))
          (View.ld (Val := Elt Ideal) (e' := .f32) x0 (Rect.unit (s := S4096x512) ![2560, 0] S512x512.size iX5)) (View.ld (Val := Elt Ideal) (e' := .i32) x1 (Rect.unit (s := S4096x1) ![2560, 0] S512x1.size iL5)))
        (View.ld (Val := Elt Ideal) (e' := .f32) x0 (Rect.unit (s := S4096x512) ![3072, 0] S512x512.size iX6)) (View.ld (Val := Elt Ideal) (e' := .i32) x1 (Rect.unit (s := S4096x1) ![3072, 0] S512x1.size iL6))
        (View.ld (Val := Elt Ideal) (e' := .f32) x0 (Rect.unit (s := S4096x512) ![3584, 0] S512x512.size iX7)) (View.ld (Val := Elt Ideal) (e' := .i32) x1 (Rect.unit (s := S4096x1) ![3584, 0] S512x1.size iL7)) acc) y
      = acc y + tileTotal x0 x1 x2 := by
  rw [pay1_eq]
  rw [pay10_apply _ io _ _ _ _ _ _ (ld_labels_lt x1 hx1 3072 (by norm_num) iL6) (ld_labels_lt x1 hx1 3584 (by norm_num) iL7) y]
  rw [pay9_apply _ io _ _ _ _ _ _ (ld_labels_lt x1 hx1 2048 (by norm_num) iL4) (ld_labels_lt x1 hx1 2560 (by norm_num) iL5) y]
  rw [pay7_apply _ io _ _ _ _ _ (ld_labels_lt x1 hx1 1024 (by norm_num) iL2) y]
  rw [pay5_apply _ _ _ (ld_labels_lt x1 hx1 0 (by norm_num) iL0) y]
  have e1 : (∑ r : Fin 512, ∑ f : Fin 512,
      ((View.ld (Val := Elt Ideal) (e' := .f32) x0 (Rect.unit (s := S4096x512) ![512, 0] S512x512.size iX1)) (ix2 r f) - k0_pay6 (F := Ideal) x2 (View.ld (Val := Elt Ideal) (e' := .i32) x1 (Rect.unit (s := S4096x1) ![512, 0] S512x1.size iL1)) (ix2 r f))
        * ((View.ld (Val := Elt Ideal) (e' := .f32) x0 (Rect.unit (s := S4096x512) ![512, 0] S512x512.size iX1)) (ix2 r f) - k0_pay6 (F := Ideal) x2 (View.ld (Val := Elt Ideal) (e' := .i32) x1 (Rect.unit (s := S4096x1) ![512, 0] S512x1.size iL1)) (ix2 r f)))
      = runSum (View.ld (Val := Elt Ideal) (e' := .f32) x0 (Rect.unit (s := S4096x512) ![512, 0] S512x512.size iX1)) (View.ld (Val := Elt Ideal) (e' := .i32) x1 (Rect.unit (s := S4096x1) ![512, 0] S512x1.size iL1)) (k0_pay4 (F := Ideal) x2) :=
    Finset.sum_congr rfl fun r _ => Finset.sum_congr rfl fun f _ => by
      rw [pay6_apply x2 _ r f ((ld_labels_lt x1 hx1 512 (by norm_num) iL1) r)]; rfl
  have e3 : (∑ r : Fin 512, k0_pay8 (F := Ideal) (k0_pay4 (F := Ideal) x2) (iota .tc S512x1024 32 [1] io) (View.ld (Val := Elt Ideal) (e' := .f32) x0 (Rect.unit (s := S4096x512) ![1536, 0] S512x512.size iX3)) (View.ld (Val := Elt Ideal) (e' := .i32) x1 (Rect.unit (s := S4096x1) ![1536, 0] S512x1.size iL3)) (ix2 r (0 : Fin 1)))
      = runSum (View.ld (Val := Elt Ideal) (e' := .f32) x0 (Rect.unit (s := S4096x512) ![1536, 0] S512x512.size iX3)) (View.ld (Val := Elt Ideal) (e' := .i32) x1 (Rect.unit (s := S4096x1) ![1536, 0] S512x1.size iL3)) (k0_pay4 (F := Ideal) x2) :=
    Finset.sum_congr rfl fun r _ => pay8_apply _ io _ _ r ((ld_labels_lt x1 hx1 1536 (by norm_num) iL3) r)
  rw [e1, e3, pay4_eq, tileTotal_runs, Fin.sum_univ_eight,
    runSum_ld x0 x1 x2 0 0 rfl iX0 iL0, runSum_ld x0 x1 x2 1 512 rfl iX1 iL1, runSum_ld x0 x1 x2 2 1024 rfl iX2 iL2,
    runSum_ld x0 x1 x2 3 1536 rfl iX3 iL3, runSum_ld x0 x1 x2 4 2048 rfl iX4 iL4, runSum_ld x0 x1 x2 5 2560 rfl iX5 iL5,
    runSum_ld x0 x1 x2 6 3072 rfl iX6 iL6, runSum_ld x0 x1 x2 7 3584 rfl iX7 iL7]

end Cert.KernelIdeal.PointValue

end
-- ==== Proof.Point.lean ====
/-
  One grid point of the tiled program, as mathematics: what the body leaves in the running sum (the 1 × 1 scratch) and,
  at a half's last tile, in the 8 × 128 block of cells, from the tile's features `x0`, its column of stored labels
  `x1`, the padded table `x2` and (after the half's first tile) the running sum `xs0` found.

  The body cuts the tile's 4096 rows into eight runs of 512. For each run it builds the 512 × 1024 matrix whose entry
  `(r, k)` is one where the stored label of row `r` is `k` and zero elsewhere, multiplies it with the padded table — row `r`
  of the product is the table's row at that label, a sum with one term that is not zero —, subtracts the product from
  the features, squares, sums each row's 512 squares and then the 512 row sums, and adds the run's number to a sum that
  starts from zero. The eight runs together are the tile's squared errors summed (`tileTotal`). The first tile of a half
  stores zero in the running sum before adding; every tile adds its number; the last also writes the sum, scaled by `P`
  and then by `Q`, to every cell of the block.
-/
import proofs.«429028_j79723182948888_3_alg».proof.Proof.Gen.KernelIdeal.Frame
import proofs.«429028_j79723182948888_3_alg».proof.Proof.Spec
import proofs.«429028_j79723182948888_3_alg».proof.Proof.Body
import Idealize.ShloMosaic.PureOps.Ideal.Laws
import Idealize.ShloMosaic.Lib.Pipeline.Value
import Idealize.ShloMosaic.Lib.ValueLayout

set_option maxRecDepth 16384

noncomputable section

open scoped BigOperators

namespace Cert.KernelIdeal.PointValue

open Cert.KernelIdeal Cert.KernelIdeal.Gen Cert.CenterLoss
open Idealize.ShloMosaic Idealize.ShloMosaic.TcCoe Idealize.ShloMosaic.ValueIdx Idealize.SL.Sem Idealize.ShloMosaic.Tactic

/-- The offsets of a store or load through a whole 2-axis buffer are zero on both axes. -/
theorem off_zero : (![0, 0] : Fin 2 → ℕ) = fun _ => 0 := by funext a; fin_cases a <;> rfl

/-- The two factors the half's sum is scaled by: `2^-26` and `2^-10`, as the words the program spells. -/
abbrev P : EReal := Ideal.ofBits .f32 0x32800000#32
abbrev Q : EReal := Ideal.ofBits .f32 0x3A800000#32

variable (c : Dev nD) (i : grid0.Coords)
  (arg2 : Memref sig .tc .vmem S4096x512 .f32) (harg2 : arg2.IsWhole) (arg3 : Memref sig .tc .vmem S4096x1 .i32) (harg3 : arg3.IsWhole)
  (arg4 : Memref sig .tc .vmem S1024x512 .bf16) (harg4 : arg4.IsWhole) (arg5 : Memref sig .tc .vmem S8x128 .f32) (harg5 : arg5.IsWhole)
  (arg6 : Memref sig .tc .vmem S1x1 .f32) (harg6 : arg6.IsWhole)
  (x0 : Vec Ideal S4096x512 .f32) (x1 : Vec Ideal S4096x1 .i32) (x2 : Vec Ideal S1024x512 .bf16)

/-- A half's first tile leaves the tile's number in the running sum. -/
theorem sout_A (hc0 : cond0_0 i) (hc1 : ¬cond0_1 i) (hx1 : ∀ r : Fin 4096, (x1 (ix2 r 0)).toNat < 1024) :
    sout0_A_0 (F := Ideal) c i arg2 harg2 arg3 harg3 arg4 harg4 arg5 harg5 arg6 harg6 hc0 hc1 x0 x1 x2
      = fun _ => tileTotal x0 x1 x2 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  rw [View.canon_cons_unit_zero (S := S1x1) off_zero]
  sl_unfold_words
  simp only [View.readAt_eq_ld, harg2.read_unread, harg3.read_unread, harg4.read_unread,
    View.ld_unit_zero (S := S1024x512) off_zero, View.readCov_unit_zero (S := S1x1) _ off_zero]
  funext y
  refine (body_apply x0 x1 x2 _ (k0_pay3 (F := Ideal)) hx1 _ _ _ _ _ _ _ _ _ _ _ _ _ _ _ _ y).trans ?_
  rw [pay3_apply, zero_add]

/-- A tile that is neither first nor last adds its number to the running sum it found. -/
theorem sout_B (hc0 : ¬cond0_0 i) (hc1 : ¬cond0_1 i) (xs0 : Vec Ideal S1x1 .f32) (hx1 : ∀ r : Fin 4096, (x1 (ix2 r 0)).toNat < 1024) :
    sout0_B_0 (F := Ideal) c i arg2 harg2 arg3 harg3 arg4 harg4 arg5 harg5 arg6 harg6 hc0 hc1 x0 x1 x2 xs0
      = fun y => xs0 y + tileTotal x0 x1 x2 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_cons_unit_zero (S := S1x1) off_zero]
  sl_unfold_words
  simp only [View.readAt_eq_ld, harg2.read_unread, harg3.read_unread, harg4.read_unread, harg6.read_unread,
    View.ld_unit_zero (S := S1024x512) off_zero, View.ld_unit_zero (S := S1x1) off_zero]
  funext y
  exact body_apply x0 x1 x2 _ xs0 hx1 _ _ _ _ _ _ _ _ _ _ _ _ _ _ _ _ y

/-- So does a half's last tile, -/
theorem sout_C (hc0 : ¬cond0_0 i) (hc1 : cond0_1 i) (xs0 : Vec Ideal S1x1 .f32) (hx1 : ∀ r : Fin 4096, (x1 (ix2 r 0)).toNat < 1024) :
    sout0_C_0 (F := Ideal) c i arg2 harg2 arg3 harg3 arg4 harg4 arg5 harg5 arg6 harg6 hc0 hc1 x0 x1 x2 xs0
      = fun y => xs0 y + tileTotal x0 x1 x2 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_cons_unit_zero (S := S1x1) off_zero]
  simp only [View.readAt_eq_ld, harg2.read_unread, harg3.read_unread, harg4.read_unread, harg6.read_unread,
    View.ld_unit_zero (S := S1024x512) off_zero, View.ld_unit_zero (S := S1x1) off_zero]
  funext y
  exact body_apply x0 x1 x2 _ xs0 hx1 _ _ _ _ _ _ _ _ _ _ _ _ _ _ _ _ y

/-- and it writes that sum, scaled by `P` and then by `Q`, to every cell of its block. -/
theorem out_C (hc0 : ¬cond0_0 i) (hc1 : cond0_1 i) (xs0 : Vec Ideal S1x1 .f32) (hx1 : ∀ r : Fin 4096, (x1 (ix2 r 0)).toNat < 1024) :
    out0_C_3 (F := Ideal) c i arg2 harg2 arg3 harg3 arg4 harg4 arg5 harg5 arg6 harg6 hc0 hc1 x0 x1 x2 xs0
      = fun _ => ((xs0 (ix2 0 0) + tileTotal x0 x1 x2) * P) * Q := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_cons_unit_zero (S := S8x128) off_zero]
  simp only [View.readAt_eq_ld, harg2.read_unread, harg3.read_unread, harg4.read_unread, harg6.read_unread,
    View.ld_unit_zero (S := S1024x512) off_zero, View.ld_unit_zero (S := S1x1) off_zero,
    View.readCov_unit_zero (S := S1x1) _ off_zero]
  funext o
  rw [pay2_apply]
  exact congrArg (fun v => (v * P) * Q) (body_apply x0 x1 x2 _ xs0 hx1 _ _ _ _ _ _ _ _ _ _ _ _ _ _ _ _ (ix2 0 0))

end Cert.KernelIdeal.PointValue

end
-- ==== Proof.Fold.lean ====
/-
  The tiled program's run, read as mathematics: from what one grid point leaves (the four per-point facts) to what the
  whole run leaves in its result.

  The grid has 32 points; point `t` is tile `t`, in the half `t / 16` of the samples. The 1 × 1 running sum is reset to
  the tile's number at a half's first tile (`t % 16 = 0`) and grows by the tile's number at every other, so after point
  `16 q + j` it holds zero plus the numbers of tiles `16 q … 16 q + j`. At a half's last tile (`t % 16 = 15`) that sum,
  scaled by `P` and then by `Q`, is written to every cell of the 8 × 128 block of the half, and only there is the block
  copied into the 16 × 128 array of cells: rows `8 q … 8 q + 7`. The two blocks cover the array, so the cell at row `a`
  holds the scaled sum of the half `a / 8`. The lines after the region add all cells to zero.
-/
import proofs.«429028_j79723182948888_3_alg».proof.Proof.Point
import proofs.«429028_j79723182948888_3_alg».proof.Proof.Names
import Idealize.ShloMosaic.Lib.Pipeline.Value
import Idealize.ShloMosaic.PureOps.Ideal.Laws
import Idealize.ShloMosaic.Lib.StableHlo.Run

set_option maxRecDepth 16384

noncomputable section

open scoped BigOperators

namespace Cert.KernelIdeal.FoldValue

open Cert.KernelIdeal Cert.KernelIdeal.Gen Cert.KernelIdeal.Names Cert.KernelIdeal.PointValue Cert.CenterLoss
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The running sum -/

/-- The running sum after point `n`, as a function into the extended reals. -/
abbrev scr (c : Dev nD) (n : ℕ) (h : n < cfg0.N) : S1x1.Idx → EReal := (outsAt0 m c n h).2

/-- At a half's first tile the running sum is the tile's number. -/
theorem scr_first (hl : ∀ (c : Dev nD) (t : Fin cfg0.N) (r : Fin 4096), (lblk m c t (ix2 r 0)).toNat < 1024)
    (c : Dev nD) (n : ℕ) (h : n < cfg0.N) (h0 : n % 16 = 0) :
    scr m c n h = fun _ => tileNum m c n := by
  have h1 : ¬n % 16 = 15 := by omega
  show (outsAt0 m c n h).2 = _
  rw [outsAt0_A m c ⟨n, h⟩ h0 h1]
  dsimp only
  refine (sout_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    (ms0_3 ⟨n, h⟩) (hs0_3 ⟨n, h⟩) scM0_0 (Memref.isWhole_whole _) (iblk m c 0 ⟨n, h⟩) (iblk m c 1 ⟨n, h⟩) (iblk m c 2 ⟨n, h⟩)
    ((hcond0_0 ⟨n, h⟩).mpr h0) (fun hh => h1 ((hcond0_1 ⟨n, h⟩).mp hh)) (hl c ⟨n, h⟩)).trans ?_
  exact funext fun _ => (tileNum_of_lt m c ⟨n, h⟩).symm

/-- At every other tile it grows by the tile's number. -/
theorem scr_next (hl : ∀ (c : Dev nD) (t : Fin cfg0.N) (r : Fin 4096), (lblk m c t (ix2 r 0)).toNat < 1024)
    (c : Dev nD) (n : ℕ) (h : n + 1 < cfg0.N) (h0 : ¬(n + 1) % 16 = 0) :
    scr m c (n + 1) h = fun y => scr m c n (Nat.lt_of_succ_lt h) y + tileNum m c (n + 1) := by
  show (outsAt0 m c (n + 1) h).2 = _
  by_cases h1 : (n + 1) % 16 = 15
  · rw [outsAt0_C m c ⟨n + 1, h⟩ h0 h1]
    dsimp only
    refine (sout_C c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) scM0_0 (Memref.isWhole_whole _)
      (iblk m c 0 ⟨n + 1, h⟩) (iblk m c 1 ⟨n + 1, h⟩) (iblk m c 2 ⟨n + 1, h⟩)
      (fun hh => h0 ((hcond0_0 ⟨n + 1, h⟩).mp hh)) ((hcond0_1 ⟨n + 1, h⟩).mpr h1)
      (outsAt0 m c n (Nat.lt_of_succ_lt h)).2 (hl c ⟨n + 1, h⟩)).trans ?_
    funext y
    show scr m c n _ y + _ = scr m c n _ y + _
    rw [tileNum_of_lt m c ⟨n + 1, h⟩]
  · rw [outsAt0_B m c ⟨n + 1, h⟩ h0 h1]
    dsimp only
    refine (sout_B c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) scM0_0 (Memref.isWhole_whole _)
      (iblk m c 0 ⟨n + 1, h⟩) (iblk m c 1 ⟨n + 1, h⟩) (iblk m c 2 ⟨n + 1, h⟩)
      (fun hh => h0 ((hcond0_0 ⟨n + 1, h⟩).mp hh)) (fun hh => h1 ((hcond0_1 ⟨n + 1, h⟩).mp hh))
      (outsAt0 m c n (Nat.lt_of_succ_lt h)).2 (hl c ⟨n + 1, h⟩)).trans ?_
    funext y
    show scr m c n _ y + _ = scr m c n _ y + _
    rw [tileNum_of_lt m c ⟨n + 1, h⟩]

/-- So after point `t` the running sum is zero plus the numbers of the half's tiles up to `t`. -/
theorem scr_eq (hl : ∀ (c : Dev nD) (t : Fin cfg0.N) (r : Fin 4096), (lblk m c t (ix2 r 0)).toNat < 1024)
    (c : Dev nD) (t : ℕ) (ht : t < cfg0.N) (y : S1x1.Idx) :
    scr m c t ht y = 0 + ∑ s ∈ Finset.range (t % 16 + 1), tileNum m c (16 * (t / 16) + s) := by
  have h' : 16 * (t / 16) + t % 16 < cfg0.N := by rw [Nat.div_add_mod]; exact ht
  have e := Pipeline.eq_accAt_of_mod (N := cfg0.N) (fun n h => scr m c n h) 16
    (fun n _ => fun _ => tileNum m c n) (fun n _ acc => fun y => acc y + tileNum m c n)
    (fun n h h0 => scr_first m hl c n h h0) (fun n h h0 => scr_next m hl c n h h0) (by norm_num) t ht h'
  refine (congrFun e y).trans ?_
  exact Pipeline.accAt_add_apply _ _ (fun _ => (0 : EReal)) (fun n _ => tileNum m c n) (16 * (t / 16)) 15
    (fun _ _ => (zero_add _).symm) (fun _ _ _ _ _ _ => rfl) (t % 16) (by omega) h' y

/-! ## The block of cells -/

/-- At a half's last tile every cell of the block holds the half's sixteen tile numbers, summed from zero and scaled by
    `P` and then by `Q`: the running sum this tile leaves is what it found plus its own number, and that is what it scales. -/
theorem cells_last (hl : ∀ (c : Dev nD) (t : Fin cfg0.N) (r : Fin 4096), (lblk m c t (ix2 r 0)).toNat < 1024)
    (c : Dev nD) (t : Fin cfg0.N) (h1 : t.val % 16 = 15) :
    (outsAt0 m c t.val t.isLt).1
      = fun _ => ((0 + ∑ s ∈ Finset.range 16, tileNum m c (16 * (t.val / 16) + s)) * P) * Q := by
  have h0 : ¬t.val % 16 = 0 := by omega
  have hs : scr m c t.val t.isLt (ix2 0 0) = 0 + ∑ s ∈ Finset.range 16, tileNum m c (16 * (t.val / 16) + s) := by
    have e := scr_eq m hl c t.val t.isLt (ix2 0 0)
    rw [h1] at e
    exact e
  have e2 : scr m c t.val t.isLt (ix2 0 0)
      = (outsAt0 m c (t.val - 1) (Nat.lt_of_le_of_lt (Nat.sub_le _ _) t.isLt)).2 (ix2 0 0)
        + tileTotal (iblk m c 0 t) (iblk m c 1 t) (iblk m c 2 t) := by
    show (outsAt0 m c t.val t.isLt).2 (ix2 0 0) = _
    rw [outsAt0_C m c t h0 h1]
    dsimp only
    exact congrFun (sout_C c (grid0.coords t) (ms0_0 t) (hs0_0 t) (ms0_1 t) (hs0_1 t) (ms0_2 t) (hs0_2 t) (ms0_3 t) (hs0_3 t)
      scM0_0 (Memref.isWhole_whole _) (iblk m c 0 t) (iblk m c 1 t) (iblk m c 2 t)
      (fun hh => h0 ((hcond0_0 t).mp hh)) ((hcond0_1 t).mpr h1)
      (outsAt0 m c (t.val - 1) (Nat.lt_of_le_of_lt (Nat.sub_le _ _) t.isLt)).2 (hl c t)) (ix2 0 0)
  rw [outsAt0_C m c t h0 h1]
  dsimp only
  refine (out_C c (grid0.coords t) (ms0_0 t) (hs0_0 t) (ms0_1 t) (hs0_1 t) (ms0_2 t) (hs0_2 t) (ms0_3 t) (hs0_3 t)
    scM0_0 (Memref.isWhole_whole _) (iblk m c 0 t) (iblk m c 1 t) (iblk m c 2 t)
    (fun hh => h0 ((hcond0_0 t).mp hh)) ((hcond0_1 t).mpr h1)
    (outsAt0 m c (t.val - 1) (Nat.lt_of_le_of_lt (Nat.sub_le _ _) t.isLt)).2 (hl c t)).trans ?_
  funext _
  rw [← e2, hs]

/-! ## The array of cells -/

/-- What the 16 × 128 array of cells ends holding: the cell at row `o 0` holds the scaled sum of the half `o 0 / 8`. -/
abbrev cellG (c : Dev nD) : S16x128.Idx → EReal :=
  fun o => ((0 + ∑ s ∈ Finset.range 16, tileNum m c (16 * ((o 0).val / 8) + s)) * P) * Q

/-- The block of cells at point `t` is block `(t / 16, 0)` of the array: decided over the grid. -/
theorem idx_cells : ∀ t : Fin cfg0.N, win0_3.index t (0 : Fin 2) = t.val / 16 ∧ win0_3.index t (1 : Fin 2) = 0 :=
  (by decide +kernel : ∀ t : Fin grid0.N, _)

/-- What a half's last tile copies into the array is its block of `cellG`: the block's rows are `8 (t / 16) + r` with
    `r < 8`, all of the half `t / 16`. -/
theorem flushed_eq (hl : ∀ (c : Dev nD) (t : Fin cfg0.N) (r : Fin 4096), (lblk m c t (ix2 r 0)).toNat < 1024)
    (c : Dev nD) (t : Fin cfg0.N) (hf : (cfg0.win 3).flush t = true) :
    (dats m 0 c).flushed 3 t = ((cfg0.win 3).blk t).view.read (Elt Ideal) (cellG m c) := by
  have h1 : t.val % 16 = 15 := (flush0_3 t).mp hf
  show (cfg0.win 3).cut (grid0.coords t) ((dats m 0 c).after 3 t) = _
  rw [after0_3, cells_last m hl c t h1]
  funext j
  have hrow : ((((cfg0.win 3).blk t).view.emb j) 0).val = win0_3.index t (0 : Fin 2) * 8 + 1 * (j 0).val := rfl
  have hj : (j 0).val < 8 := (j 0).isLt
  have hq : ((((cfg0.win 3).blk t).view.emb j) 0).val / 8 = t.val / 16 := by rw [hrow, (idx_cells t).1]; omega
  show _ = ((0 + ∑ s ∈ Finset.range 16, tileNum m c (16 * (((((cfg0.win 3).blk t).view.emb j) 0).val / 8) + s)) * P) * Q
  rw [hq]

/-- An index of the array is in point `t`'s block iff each coordinate is in the block's range on its axis. -/
theorem mem_blk (t : Fin cfg0.N) (i : S16x128.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v4).slice (win0_3.rect t)).set ↔ _
  rw [View.set_slice_whole, Rect.mem_set_unit]
  exact Iff.rfl

/-- The two blocks cover the array (row `a` is under the block of the last tile of the half `a / 8`), so the array ends
    holding `cellG`. -/
theorem final (hl : ∀ (c : Dev nD) (t : Fin cfg0.N) (r : Fin 4096), (lblk m c t (ix2 r 0)).toNat < 1024)
    (c : Dev nD) : (dats m 0 c).arrAt 3 cfg0.N = cellG m c :=
  (dats m 0 c).arrAt_eq_of_cover 3 (cellG m c) (fun t hf => flushed_eq m hl c t hf) fun i => by
    have hi0 : (i 0).val < 16 := (i 0).isLt
    have hi1 : (i 1).val < 128 := (i 1).isLt
    have hN : cfg0.N = 32 := N_0
    obtain ⟨t, ht⟩ : ∃ t : Fin cfg0.N, t.val = 16 * ((i 0).val / 8) + 15 := ⟨⟨_, by omega⟩, rfl⟩
    refine ⟨t, (flush0_3 t).mpr (by omega), ?_⟩
    rw [mem_blk]
    obtain ⟨e0, e1⟩ := idx_cells t
    intro a
    match a with
    | ⟨0, _⟩ =>
      show win0_3.index t (0 : Fin 2) * 8 ≤ (i 0).val ∧ (i 0).val < win0_3.index t (0 : Fin 2) * 8 + 8
      rw [e0]; omega
    | ⟨1, _⟩ =>
      show win0_3.index t (1 : Fin 2) * 128 ≤ (i 1).val ∧ (i 1).val < win0_3.index t (1 : Fin 2) * 128 + 128
      rw [e1]; omega

/-! ## The lines after the region -/

/-- The lines after the region add every cell of the array to zero. -/
theorem tail_eq (hl : ∀ (c : Dev nD) (t : Fin cfg0.N) (r : Fin 4096), (lblk m c t (ix2 r 0)).toNat < 1024)
    (c : Dev nD) :
    Pipeline.afterTail₀ cfgs (dats m) 0 (V0 m) [hostOps1] c main_v5
      = fun _ => 0 + ∑ o : S16x128.Idx, cellG m c o := by
  unfold Pipeline.afterTail₀
  show StableHlo.after hostOps1 _ (Proc.devRef .tc main_v5) = _
  after_results
  rw [(Pipeline.withArrays_arr spec0 launch0.win.arr_inj c _ _ 3).trans (final m hl c)]
  funext j
  show Ideal.hostReduceAdd reducesTo_S16x128_S_d0_1 (cellG m c) (Ideal.ofBits .f32 0x00000000#32) j = _
  rw [Ideal.hostReduceAdd_total reducesTo_S16x128_S_d0_1 (fun b => b.elim0), Ideal.ofBits_zero_f32]

/-! ## The run -/

/-- The tiled program's run: its result is zero plus the sum over the 16 × 128 cells, cell `o` holding its half's sixteen
    tile numbers summed from zero and scaled by `P` and then by `Q`; the arguments end unchanged. -/
theorem run_value (hl : ∀ (c : Dev nD) (t : Fin cfg0.N) (r : Fin 4096), (lblk m c t (ix2 r 0)).toNat < 1024) :
    θ_run defs (onTc (τ := τ) (main (F := Ideal))) ⟨m, fun _ => 0, ρ⟩ (fun r => ∀ c : Dev nD,
      r.2.mem ((c.tc : Thread nD τ).loc main_v5)
          = (fun _ => 0 + ∑ o : S16x128.Idx, ((0 + ∑ s ∈ Finset.range 16, tileNum m c (16 * ((o 0).val / 8) + s)) * P) * Q)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (tail_eq m hl c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.FoldValue

end
-- ==== Proof.lean ====
/-
  The center loss of 131072 samples: the mean, over all 131072 · 512 entries, of the squared difference between a sample's
  features and the class-table row its label selects.

  The reference gathers the rows and divides the sum of all squared differences by 2^26. The tiled program clamps each
  label into [0, 999], pads the table to 1024 rows of which the last 24 are zero, and runs a grid of 2 × 16 points, each
  on a tile of 4096 samples: a point finds its tile's table rows as the product of a matrix of ones and zeros with the
  table, adds the tile's squared differences to a running sum that the first tile of each half of the samples starts
  from zero, and the last tile of a half writes the half's sum, scaled by 2^-26 and then by 2^-10, to all 1024 cells of an
  8 × 128 block; the 2048 cells are summed on the host. On the extended reals a sum may be regrouped freely, a product
  with zero is zero, and scaling by a positive real distributes over sums, so the two results agree for every input in
  which the labels are not negative: a negative label the reference reads as counting rows from the table's end while the
  tiled program clamps it to row zero, and the stated domain excludes it. The finiteness of the features and of the table,
  which the domain also states, is not used.

  The frames of the two kernel programs are the generated ones; the reference's frame is its generated run with the
  result dropped; the idealization rewrote nothing.
-/
import proofs.«429028_j79723182948888_3_alg».proof.Defs
import proofs.«429028_j79723182948888_3_alg».proof.Proof.Gen.Kernel
import proofs.«429028_j79723182948888_3_alg».proof.Proof.Gen.Kernel.Frame
import proofs.«429028_j79723182948888_3_alg».proof.Proof.Gen.KernelIdeal
import proofs.«429028_j79723182948888_3_alg».proof.Proof.Gen.KernelIdeal.Frame
import proofs.«429028_j79723182948888_3_alg».proof.Proof.Gen.ReferenceIdeal
import proofs.«429028_j79723182948888_3_alg».proof.Proof.Gen.Pre_finite_inputs
import proofs.«429028_j79723182948888_3_alg».proof.Proof.Gen.ReferenceIdeal.Run
import proofs.«429028_j79723182948888_3_alg».proof.Proof.Gen.ReferenceIdeal.Read
import proofs.«429028_j79723182948888_3_alg».proof.Proof.SumAlgebra
import proofs.«429028_j79723182948888_3_alg».proof.Proof.RefValue
import proofs.«429028_j79723182948888_3_alg».proof.Proof.Blocks
import proofs.«429028_j79723182948888_3_alg».proof.Proof.Fold
import Idealize.ShloMosaic.Adequacy
import Idealize.ShloMosaic.Init

noncomputable section

open scoped BigOperators

namespace Cert.Proof

open Idealize.ShloMosaic Idealize.SL.Sem

/-- The word-level program runs and leaves its arguments as they were. -/
theorem frame_kernel : Cert.frame_Kernel := fun m ρ _ => Cert.Kernel.Gen.frame m ρ

/-- So does the program read over the extended reals. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the program over the extended reals rewrote no operation. -/
theorem preserves : Cert.preserves_Kernel_KernelIdeal := trivial

open Cert.KernelIdeal.Names Cert.KernelIdeal.PointValue Cert.CenterLoss in
/-- Both programs end with the sum of all squared errors divided by 2^26: the tiled program's cells sum to the tiled
    loss of the arguments (each tile's number is the tile's squared errors; the stored labels are below 1024), which is
    the reference's loss; the reference's run ends with that loss when no label is negative, which the domain states. -/
theorem algebraic : Cert.algebraic_KernelIdeal_ReferenceIdeal := by
  intro m ρ m' ρ' hpre hagree
  refine ⟨fun c => (fun _ => refLoss (argX m c) (argL m c) (argT m c) (Ideal.ofBits .f32 0x4C800000#32)), ?_, ?_⟩
  · refine (θ_run Cert.KernelIdeal.defs _ _).mono (fun r h c => ⟨(h c).1.trans ?_, (h c).2⟩)
      (Cert.KernelIdeal.FoldValue.run_value m ρ (fun c t r => Cert.KernelIdeal.BlockValue.labels_lt m c t r))
    funext _
    have hcell : ∀ o : Cert.KernelIdeal.S16x128.Idx,
        ((0 + ∑ s ∈ Finset.range 16, tileNum m c (16 * ((o 0).val / 8) + s)) * P) * Q
          = outCell (argX m c) (argL m c) (argT m c) P Q o := fun o => by
      unfold outCell
      refine congrArg (fun v => ((0 + v) * P) * Q) (Finset.sum_congr rfl fun s hs => ?_)
      have hs' : s < 16 := Finset.mem_range.mp hs
      have ho : (o 0).val < 16 := (o 0).isLt
      exact Cert.KernelIdeal.BlockValue.tileNum_eq m c _ (by omega)
    rw [Finset.sum_congr rfl fun o _ => hcell o]
    exact tiled_eq_ref _ _ _
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v10_eq, (hagree c).1, (hagree c).2.1, (hagree c).2.2]
    exact Cert.ReferenceIdeal.RefValue.ref_value _ _ _ (Cert.ReferenceIdeal.RefValue.labels_nonneg _ _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
